-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x250000x3 : Shape := ⟨3, ![16, 250000, 3]⟩
abbrev S500000x3 : Shape := ⟨2, ![500000, 3]⟩
abbrev S_ : Shape := ⟨0, ![]⟩

class Facts : Prop where
  bcast_S_S16x250000x3 : S_.BroadcastsInDim S16x250000x3 (![] : Fin 0 → Fin S16x250000x3.rank)
  reducesTo_S16x250000x3_S_d0_1_2 : S16x250000x3.ReducesTo [0, 1, 2] S_
  h_S_ : 0 < S_.numel

variable [Facts]

def fn {F : FTy → Type} [FloatOps F] (main_arg0 : FVec F S16x250000x3 .f32) (main_arg1 : FVec F S16x250000x3 .f32) (main_arg2 : IVec S500000x3 32) : IVec S_ 1 :=
  let main_v0 : FVec F S16x250000x3 .f32 := Host.absf main_arg0
  let main_cst : FVec F S_ .f32 := constant S_ .f32 0x7F800000#32
  let main_v1 : FVec F S16x250000x3 .f32 := broadcastInDim S16x250000x3 ![] bcast_S_S16x250000x3 main_cst
  let main_v2 : IVec S16x250000x3 1 := cmpf .olt main_v0 main_v1
  let main_c : IVec S_ 1 := constantI S_ 1 1#1
  let main_v3 : IVec S_ 1 := (fun x v => Host.reduce IntOp.andi x v reducesTo_S16x250000x3_S_d0_1_2 h_S_) main_v2 main_c
  let main_v4 : FVec F S16x250000x3 .f32 := Host.absf main_arg1
  let main_cst_0 : FVec F S_ .f32 := constant S_ .f32 0x7F800000#32
  let main_v5 : FVec F S16x250000x3 .f32 := broadcastInDim S16x250000x3 ![] bcast_S_S16x250000x3 main_cst_0
  let main_v6 : IVec S16x250000x3 1 := cmpf .olt main_v4 main_v5
  let main_c_1 : IVec S_ 1 := constantI S_ 1 1#1
  let main_v7 : IVec S_ 1 := (fun x v => Host.reduce IntOp.andi x v reducesTo_S16x250000x3_S_d0_1_2 h_S_) main_v6 main_c_1
  let main_v8 : IVec S_ 1 := andi main_v3 main_v7
  main_v8
-- ==== Kernel.lean ====
abbrev S16x250000x3 : Shape := ⟨3, ![16, 250000, 3]⟩
abbrev S500000x3 : Shape := ⟨2, ![500000, 3]⟩
abbrev S500000x1 : Shape := ⟨2, ![500000, 1]⟩
abbrev S500000 : Shape := ⟨1, ![500000]⟩
abbrev S3000000 : Shape := ⟨1, ![3000000]⟩
abbrev S_ : Shape := ⟨0, ![]⟩
abbrev S250000 : Shape := ⟨1, ![250000]⟩
abbrev S3000000x1 : Shape := ⟨2, ![3000000, 1]⟩
abbrev S16x3000000x3 : Shape := ⟨3, ![16, 3000000, 3]⟩
abbrev S250000x3 : Shape := ⟨2, ![250000, 3]⟩
abbrev S1x250000x1 : Shape := ⟨3, ![1, 250000, 1]⟩
abbrev S1x1 : Shape := ⟨2, ![1, 1]⟩
abbrev S16x25000x3 : Shape := ⟨3, ![16, 25000, 3]⟩
abbrev S1x25000x1 : Shape := ⟨3, ![1, 25000, 1]⟩
abbrev S1x16x25000x3 : Shape := ⟨4, ![1, 16, 25000, 3]⟩
abbrev S1 : Shape := ⟨1, ![1]⟩
abbrev S1x1x1x1 : Shape := ⟨4, ![1, 1, 1, 1]⟩

abbrev nBuf : Space → Nat
  | .hbm => 51
  | .vmem => 12
  | .smem => 0
  | _ => 0

abbrev bufTy : (tb : Table) → Fin (tcTables nBuf tb) → BufTy
  | .hbm, ⟨0, _⟩ => ⟨S16x250000x3, .f32⟩
  | .hbm, ⟨1, _⟩ => ⟨S16x250000x3, .f32⟩
  | .hbm, ⟨2, _⟩ => ⟨S500000x3, .i32⟩
  | .hbm, ⟨3, _⟩ => ⟨S500000x1, .i32⟩
  | .hbm, ⟨4, _⟩ => ⟨S500000, .i32⟩
  | .hbm, ⟨5, _⟩ => ⟨S500000x1, .i32⟩
  | .hbm, ⟨6, _⟩ => ⟨S500000, .i32⟩
  | .hbm, ⟨7, _⟩ => ⟨S500000x1, .i32⟩
  | .hbm, ⟨8, _⟩ => ⟨S500000, .i32⟩
  | .hbm, ⟨9, _⟩ => ⟨S3000000, .i32⟩
  | .hbm, ⟨10, _⟩ => ⟨S3000000, .i32⟩
  | .hbm, ⟨11, _⟩ => ⟨S_, .f32⟩
  | .hbm, ⟨12, _⟩ => ⟨S3000000, .f32⟩
  | .hbm, ⟨13, _⟩ => ⟨S_, .f32⟩
  | .hbm, ⟨14, _⟩ => ⟨S250000, .f32⟩
  | .hbm, ⟨15, _⟩ => ⟨S3000000x1, .i32⟩
  | .hbm, ⟨16, _⟩ => ⟨S250000, .f32⟩
  | .hbm, ⟨17, _⟩ => ⟨S_, .f32⟩
  | .hbm, ⟨18, _⟩ => ⟨S250000, .f32⟩
  | .hbm, ⟨19, _⟩ => ⟨S250000, .f32⟩
  | .hbm, ⟨20, _⟩ => ⟨S_, .i32⟩
  | .hbm, ⟨21, _⟩ => ⟨S3000000, .i32⟩
  | .hbm, ⟨22, _⟩ => ⟨S3000000, .i1⟩
  | .hbm, ⟨23, _⟩ => ⟨S_, .i32⟩
  | .hbm, ⟨24, _⟩ => ⟨S3000000, .i32⟩
  | .hbm, ⟨25, _⟩ => ⟨S3000000, .i32⟩
  | .hbm, ⟨26, _⟩ => ⟨S3000000, .i32⟩
  | .hbm, ⟨27, _⟩ => ⟨S3000000x1, .i32⟩
  | .hbm, ⟨28, _⟩ => ⟨S16x3000000x3, .f32⟩
  | .hbm, ⟨29, _⟩ => ⟨S_, .f32⟩
  | .hbm, ⟨30, _⟩ => ⟨S250000x3, .f32⟩
  | .hbm, ⟨31, _⟩ => ⟨S3000000x1, .i32⟩
  | .hbm, ⟨32, _⟩ => ⟨S16x250000x3, .f32⟩
  | .hbm, ⟨33, _⟩ => ⟨S16x250000x3, .f32⟩
  | .hbm, ⟨34, _⟩ => ⟨S_, .i32⟩
  | .hbm, ⟨35, _⟩ => ⟨S3000000, .i32⟩
  | .hbm, ⟨36, _⟩ => ⟨S3000000, .i1⟩
  | .hbm, ⟨37, _⟩ => ⟨S_, .i32⟩
  | .hbm, ⟨38, _⟩ => ⟨S3000000, .i32⟩
  | .hbm, ⟨39, _⟩ => ⟨S3000000, .i32⟩
  | .hbm, ⟨40, _⟩ => ⟨S3000000, .i32⟩
  | .hbm, ⟨41, _⟩ => ⟨S3000000x1, .i32⟩
  | .hbm, ⟨42, _⟩ => ⟨S16x3000000x3, .f32⟩
  | .hbm, ⟨43, _⟩ => ⟨S_, .f32⟩
  | .hbm, ⟨44, _⟩ => ⟨S250000x3, .f32⟩
  | .hbm, ⟨45, _⟩ => ⟨S3000000x1, .i32⟩
  | .hbm, ⟨46, _⟩ => ⟨S16x250000x3, .f32⟩
  | .hbm, ⟨47, _⟩ => ⟨S16x250000x3, .f32⟩
  | .hbm, ⟨48, _⟩ => ⟨S1x250000x1, .f32⟩
  | .hbm, ⟨49, _⟩ => ⟨S1x1, .f32⟩
  | .hbm, ⟨50, _⟩ => ⟨S_, .f32⟩
  | .local _ .vmem, ⟨0, _⟩ => ⟨S16x25000x3, .f32⟩
  | .local _ .vmem, ⟨1, _⟩ => ⟨S16x25000x3, .f32⟩
  | .local _ .vmem, ⟨2, _⟩ => ⟨S16x25000x3, .f32⟩
  | .local _ .vmem, ⟨3, _⟩ => ⟨S16x25000x3, .f32⟩
  | .local _ .vmem, ⟨4, _⟩ => ⟨S16x25000x3, .f32⟩
  | .local _ .vmem, ⟨5, _⟩ => ⟨S16x25000x3, .f32⟩
  | .local _ .vmem, ⟨6, _⟩ => ⟨S16x25000x3, .f32⟩
  | .local _ .vmem, ⟨7, _⟩ => ⟨S16x25000x3, .f32⟩
  | .local _ .vmem, ⟨8, _⟩ => ⟨S1x25000x1, .f32⟩
  | .local _ .vmem, ⟨9, _⟩ => ⟨S1x25000x1, .f32⟩
  | .local _ .vmem, ⟨10, _⟩ => ⟨S1x1, .f32⟩
  | .local _ .vmem, ⟨11, _⟩ => ⟨S1x1, .f32⟩
  | _, _ => ⟨S16x250000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_19 : BitVec 32 := 0#32
  let v31 : BitVec 1 := Scalar.cmpi .ne v30 c0_i32_19
  v31

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x25000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x25000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x25000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x25000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x25000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  slices_S500000x3_S500000x1_0_0 : S500000x3.Slices ![0, 0] S500000x1
  shapeCasts_S500000x1_S500000 : S500000x1.ShapeCasts S500000
  slices_S500000x3_S500000x1_0_1 : S500000x3.Slices ![0, 1] S500000x1
  slices_S500000x3_S500000x1_0_2 : S500000x3.Slices ![0, 2] S500000x1
  concatenates_S500000_S500000_S500000_S500000_S500000_S500000_S3000000_d0 : Shape.Concatenates [S500000, S500000, S500000, S500000, S500000, S500000] S3000000 0
  bcast_S_S3000000 : S_.BroadcastsInDim S3000000 (![] : Fin 0 → Fin S3000000.rank)
  bcast_S_S250000 : S_.BroadcastsInDim S250000 (![] : Fin 0 → Fin S250000.rank)
  bcast_S3000000_S3000000x1_0 : S3000000.BroadcastsInDim S3000000x1 (![0] : Fin 1 → Fin S3000000x1.rank)
  bcast_S_S250000x3 : S_.BroadcastsInDim S250000x3 (![] : Fin 0 → Fin S250000x3.rank)
  bcast_S250000x3_S16x250000x3_1_2 : S250000x3.BroadcastsInDim S16x250000x3 (![1, 2] : Fin 2 → Fin S16x250000x3.rank)
  shapeCasts_S250000_S1x250000x1 : S250000.ShapeCasts S1x250000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x25000x1_S1x25000x1_0_0_0 : ∀ a, (![0, 0, 0] : Fin 3 → Nat) a + S1x25000x1.size a ≤ S1x25000x1.size a
  h_S1x25000x1 : 0 < S1x25000x1.numel
  shapeCasts_S1x25000x1_S1x25000x1 : S1x25000x1.ShapeCasts S1x25000x1
  inb_S16x25000x3_S16x25000x3_0_0_0 : ∀ a, (![0, 0, 0] : Fin 3 → Nat) a + S16x25000x3.size a ≤ S16x25000x3.size a
  h_S16x25000x3 : 0 < S16x25000x3.numel
  shapeCasts_S16x25000x3_S16x25000x3 : S16x25000x3.ShapeCasts S16x25000x3
  broadcasts_S1x25000x1_S16x25000x3 : S1x25000x1.Broadcasts S16x25000x3
  shapeCasts_S16x25000x3_S1x16x25000x3 : S16x25000x3.ShapeCasts S1x16x25000x3
  reduces_S1x16x25000x3_S1 : S1x16x25000x3.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  shapeCasts_S1x1_S_ : S1x1.ShapeCasts S_
  scatter_S250000_S3000000x1_S3000000_n_0_0_1_wf : ScatterDims.WF S250000 S3000000x1 S3000000 [] [0] [0] 1
  gather_S16x250000x3_S3000000x1_S16x3000000x3_02_1_n_n_1_1_1613_wf : GatherDims.WF S16x250000x3 S3000000x1 S16x3000000x3 [0, 2] [1] [] [1] [] 1 ![16, 1, 3]
  scatter_S16x250000x3_S3000000x1_S16x3000000x3_02_1_1_1_wf : ScatterDims.WF S16x250000x3 S3000000x1 S16x3000000x3 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x25000x3.size a ≤ S16x250000x3.size a
  hwx0_0 : ∀ i : grid0.Coords, EltTy.bits .f32 = 32 ∨ (Rect.block (s := S16x250000x3) S16x25000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x25000x3.size a ≤ S16x250000x3.size a
  hwx0_1 : ∀ i : grid0.Coords, EltTy.bits .f32 = 32 ∨ (Rect.block (s := S16x250000x3) S16x25000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x25000x3.size a ≤ S16x250000x3.size a
  hwx0_2 : ∀ i : grid0.Coords, EltTy.bits .f32 = 32 ∨ (Rect.block (s := S16x250000x3) S16x25000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x25000x3.size a ≤ S16x250000x3.size a
  hwx0_3 : ∀ i : grid0.Coords, EltTy.bits .f32 = 32 ∨ (Rect.block (s := S16x250000x3) S16x25000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x25000x1.size a ≤ S1x250000x1.size a
  hwx0_4 : ∀ i : grid0.Coords, EltTy.bits .f32 = 32 ∨ (Rect.block (s := S1x250000x1) S1x25000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def scatter_S250000_S3000000x1_S3000000_n_0_0_1 : ScatterDims S250000 S3000000x1 S3000000 where
  updateWindowDims := []
  insertedWindowDims := [0]
  scatterDimsToOperandDims := [0]
  indexVectorDim := 1
  wf := scatter_S250000_S3000000x1_S3000000_n_0_0_1_wf
def gather_S16x250000x3_S3000000x1_S16x3000000x3_02_1_n_n_1_1_1613 : GatherDims S16x250000x3 S3000000x1 S16x3000000x3 where
  offsetDims := [0, 2]
  collapsedSliceDims := [1]
  operandBatchingDims := []
  startIndicesBatchingDims := []
  startIndexMap := [1]
  indexVectorDim := 1
  sliceSizes := ![16, 1, 3]
  wf := gather_S16x250000x3_S3000000x1_S16x3000000x3_02_1_n_n_1_1_1613_wf
def scatter_S16x250000x3_S3000000x1_S16x3000000x3_02_1_1_1 : ScatterDims S16x250000x3 S3000000x1 S16x3000000x3 where
  updateWindowDims := [0, 2]
  insertedWindowDims := [1]
  scatterDimsToOperandDims := [1]
  indexVectorDim := 1
  wf := scatter_S16x250000x3_S3000000x1_S16x3000000x3_02_1_1_1_wf

abbrev win0_0 : Pipeline.Window sig grid0 :=
  Pipeline.Window.ofSpec (Memref.whole main_v24) S16x25000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S16x25000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S16x25000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S16x25000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x25000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x250000x3 : Shape := ⟨3, ![16, 250000, 3]⟩
abbrev S500000x3 : Shape := ⟨2, ![500000, 3]⟩
abbrev S500000x1 : Shape := ⟨2, ![500000, 1]⟩
abbrev S500000 : Shape := ⟨1, ![500000]⟩
abbrev S3000000 : Shape := ⟨1, ![3000000]⟩
abbrev S_ : Shape := ⟨0, ![]⟩
abbrev S250000 : Shape := ⟨1, ![250000]⟩
abbrev S3000000x1 : Shape := ⟨2, ![3000000, 1]⟩
abbrev S16x3000000x3 : Shape := ⟨3, ![16, 3000000, 3]⟩
abbrev S250000x3 : Shape := ⟨2, ![250000, 3]⟩
abbrev S1x250000x1 : Shape := ⟨3, ![1, 250000, 1]⟩

abbrev nBuf : Space → Nat
  | .hbm => 79
  | .vmem => 0
  | .smem => 0
  | _ => 0

abbrev bufTy : (tb : Table) → Fin (tcTables nBuf tb) → BufTy
  | .hbm, ⟨0, _⟩ => ⟨S16x250000x3, .f32⟩
  | .hbm, ⟨1, _⟩ => ⟨S16x250000x3, .f32⟩
  | .hbm, ⟨2, _⟩ => ⟨S500000x3, .i32⟩
  | .hbm, ⟨3, _⟩ => ⟨S500000x1, .i32⟩
  | .hbm, ⟨4, _⟩ => ⟨S500000, .i32⟩
  | .hbm, ⟨5, _⟩ => ⟨S500000x1, .i32⟩
  | .hbm, ⟨6, _⟩ => ⟨S500000, .i32⟩
  | .hbm, ⟨7, _⟩ => ⟨S500000x1, .i32⟩
  | .hbm, ⟨8, _⟩ => ⟨S500000, .i32⟩
  | .hbm, ⟨9, _⟩ => ⟨S3000000, .i32⟩
  | .hbm, ⟨10, _⟩ => ⟨S3000000, .i32⟩
  | .hbm, ⟨11, _⟩ => ⟨S_, .f32⟩
  | .hbm, ⟨12, _⟩ => ⟨S3000000, .f32⟩
  | .hbm, ⟨13, _⟩ => ⟨S_, .f32⟩
  | .hbm, ⟨14, _⟩ => ⟨S250000, .f32⟩
  | .hbm, ⟨15, _⟩ => ⟨S3000000x1, .i32⟩
  | .hbm, ⟨16, _⟩ => ⟨S250000, .f32⟩
  | .hbm, ⟨17, _⟩ => ⟨S_, .f32⟩
  | .hbm, ⟨18, _⟩ => ⟨S250000, .f32⟩
  | .hbm, ⟨19, _⟩ => ⟨S250000, .f32⟩
  | .hbm, ⟨20, _⟩ => ⟨S_, .i32⟩
  | .hbm, ⟨21, _⟩ => ⟨S3000000, .i32⟩
  | .hbm, ⟨22, _⟩ => ⟨S3000000, .i1⟩
  | .hbm, ⟨23, _⟩ => ⟨S_, .i32⟩
  | .hbm, ⟨24, _⟩ => ⟨S3000000, .i32⟩
  | .hbm, ⟨25, _⟩ => ⟨S3000000, .i32⟩
  | .hbm, ⟨26, _⟩ => ⟨S3000000, .i32⟩
  | .hbm, ⟨27, _⟩ => ⟨S3000000x1, .i32⟩
  | .hbm, ⟨28, _⟩ => ⟨S16x3000000x3, .f32⟩
  | .hbm, ⟨29, _⟩ => ⟨S_, .f32⟩
  | .hbm, ⟨30, _⟩ => ⟨S250000x3, .f32⟩
  | .hbm, ⟨31, _⟩ => ⟨S3000000x1, .i32⟩
  | .hbm, ⟨32, _⟩ => ⟨S16x250000x3, .f32⟩
  | .hbm, ⟨33, _⟩ => ⟨S16x250000x3, .f32⟩
  | .hbm, ⟨34, _⟩ => ⟨S1x250000x1, .f32⟩
  | .hbm, ⟨35, _⟩ => ⟨S16x250000x3, .f32⟩
  | .hbm, ⟨36, _⟩ => ⟨S16x250000x3, .f32⟩
  | .hbm, ⟨37, _⟩ => ⟨S16x250000x3, .f32⟩
  | .hbm, ⟨38, _⟩ => ⟨S500000x1, .i32⟩
  | .hbm, ⟨39, _⟩ => ⟨S500000, .i32⟩
  | .hbm, ⟨40, _⟩ => ⟨S500000x1, .i32⟩
  | .hbm, ⟨41, _⟩ => ⟨S500000, .i32⟩
  | .hbm, ⟨42, _⟩ => ⟨S500000x1, .i32⟩
  | .hbm, ⟨43, _⟩ => ⟨S500000, .i32⟩
  | .hbm, ⟨44, _⟩ => ⟨S3000000, .i32⟩
  | .hbm, ⟨45, _⟩ => ⟨S3000000, .i32⟩
  | .hbm, ⟨46, _⟩ => ⟨S_, .f32⟩
  | .hbm, ⟨47, _⟩ => ⟨S3000000, .f32⟩
  | .hbm, ⟨48, _⟩ => ⟨S_, .f32⟩
  | .hbm, ⟨49, _⟩ => ⟨S250000, .f32⟩
  | .hbm, ⟨50, _⟩ => ⟨S3000000x1, .i32⟩
  | .hbm, ⟨51, _⟩ => ⟨S250000, .f32⟩
  | .hbm, ⟨52, _⟩ => ⟨S_, .f32⟩
  | .hbm, ⟨53, _⟩ => ⟨S250000, .f32⟩
  | .hbm, ⟨54, _⟩ => ⟨S250000, .f32⟩
  | .hbm, ⟨55, _⟩ => ⟨S_, .i32⟩
  | .hbm, ⟨56, _⟩ => ⟨S3000000, .i32⟩
  | .hbm, ⟨57, _⟩ => ⟨S3000000, .i1⟩
  | .hbm, ⟨58, _⟩ => ⟨S_, .i32⟩
  | .hbm, ⟨59, _⟩ => ⟨S3000000, .i32⟩
  | .hbm, ⟨60, _⟩ => ⟨S3000000, .i32⟩
  | .hbm, ⟨61, _⟩ => ⟨S3000000, .i32⟩
  | .hbm, ⟨62, _⟩ => ⟨S3000000x1, .i32⟩
  | .hbm, ⟨63, _⟩ => ⟨S16x3000000x3, .f32⟩
  | .hbm, ⟨64, _⟩ => ⟨S_, .f32⟩
  | .hbm, ⟨65, _⟩ => ⟨S250000x3, .f32⟩
  | .hbm, ⟨66, _⟩ => ⟨S3000000x1, .i32⟩
  | .hbm, ⟨67, _⟩ => ⟨S16x250000x3, .f32⟩
  | .hbm, ⟨68, _⟩ => ⟨S16x250000x3, .f32⟩
  | .hbm, ⟨69, _⟩ => ⟨S1x250000x1, .f32⟩
  | .hbm, ⟨70, _⟩ => ⟨S16x250000x3, .f32⟩
  | .hbm, ⟨71, _⟩ => ⟨S16x250000x3, .f32⟩
  | .hbm, ⟨72, _⟩ => ⟨S16x250000x3, .f32⟩
  | .hbm, ⟨73, _⟩ => ⟨S16x250000x3, .f32⟩
  | .hbm, ⟨74, _⟩ => ⟨S16x250000x3, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S16x250000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_c_7 : Ref sig .tc := ⟨.hbm, 55, rfl⟩
abbrev main_v43 : Ref sig .tc := ⟨.hbm, 56, rfl⟩
abbrev main_v44 : Ref sig .tc := ⟨.hbm, 57, rfl⟩
abbrev main_c_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩

abbrev nD : Nat := 1
abbrev τ : Topo := Topo.v7x

variable {F : FTy → Type} [FloatOps F]

class Facts₀ : Prop where
  slices_S500000x3_S500000x1_0_0 : S500000x3.Slices ![0, 0] S500000x1
  shapeCasts_S500000x1_S500000 : S500000x1.ShapeCasts S500000
  slices_S500000x3_S500000x1_0_1 : S500000x3.Slices ![0, 1] S500000x1
  slices_S500000x3_S500000x1_0_2 : S500000x3.Slices ![0, 2] S500000x1
  concatenates_S500000_S500000_S500000_S500000_S500000_S500000_S3000000_d0 : Shape.Concatenates [S500000, S500000, S500000, S500000, S500000, S500000] S3000000 0
  bcast_S_S3000000 : S_.BroadcastsInDim S3000000 (![] : Fin 0 → Fin S3000000.rank)
  bcast_S_S250000 : S_.BroadcastsInDim S250000 (![] : Fin 0 → Fin S250000.rank)
  bcast_S3000000_S3000000x1_0 : S3000000.BroadcastsInDim S3000000x1 (![0] : Fin 1 → Fin S3000000x1.rank)
  bcast_S_S250000x3 : S_.BroadcastsInDim S250000x3 (![] : Fin 0 → Fin S250000x3.rank)
  bcast_S250000x3_S16x250000x3_1_2 : S250000x3.BroadcastsInDim S16x250000x3 (![1, 2] : Fin 2 → Fin S16x250000x3.rank)
  bcast_S250000_S1x250000x1_1 : S250000.BroadcastsInDim S1x250000x1 (![1] : Fin 1 → Fin S1x250000x1.rank)
  bcast_S1x250000x1_S16x250000x3_0_1_2 : S1x250000x1.BroadcastsInDim S16x250000x3 (![0, 1, 2] : Fin 3 → Fin S16x250000x3.rank)
  reducesTo_S16x250000x3_S_d0_1_2 : S16x250000x3.ReducesTo [0, 1, 2] S_
  h_S_ : 0 < S_.numel
  scatter_S250000_S3000000x1_S3000000_n_0_0_1_wf : ScatterDims.WF S250000 S3000000x1 S3000000 [] [0] [0] 1
  gather_S16x250000x3_S3000000x1_S16x3000000x3_02_1_n_n_1_1_1613_wf : GatherDims.WF S16x250000x3 S3000000x1 S16x3000000x3 [0, 2] [1] [] [1] [] 1 ![16, 1, 3]
  scatter_S16x250000x3_S3000000x1_S16x3000000x3_02_1_1_1_wf : ScatterDims.WF S16x250000x3 S3000000x1 S16x3000000x3 [0, 2] [1] [1] 1

variable [Facts₀]

def scatter_S250000_S3000000x1_S3000000_n_0_0_1 : ScatterDims S250000 S3000000x1 S3000000 where
  updateWindowDims := []
  insertedWindowDims := [0]
  scatterDimsToOperandDims := [0]
  indexVectorDim := 1
  wf := scatter_S250000_S3000000x1_S3000000_n_0_0_1_wf
def gather_S16x250000x3_S3000000x1_S16x3000000x3_02_1_n_n_1_1_1613 : GatherDims S16x250000x3 S3000000x1 S16x3000000x3 where
  offsetDims := [0, 2]
  collapsedSliceDims := [1]
  operandBatchingDims := []
  startIndicesBatchingDims := []
  startIndexMap := [1]
  indexVectorDim := 1
  sliceSizes := ![16, 1, 3]
  wf := gather_S16x250000x3_S3000000x1_S16x3000000x3_02_1_n_n_1_1_1613_wf
def scatter_S16x250000x3_S3000000x1_S16x3000000x3_02_1_1_1 : ScatterDims S16x250000x3 S3000000x1 S16x3000000x3 where
  updateWindowDims := [0, 2]
  insertedWindowDims := [1]
  scatterDimsToOperandDims := [1]
  indexVectorDim := 1
  wf := scatter_S16x250000x3_S3000000x1_S16x3000000x3_02_1_1_1_wf

class Facts : Prop extends Facts₀ where

variable [Facts]
-- ==== Proof.KKit.lean ====
/-
  The launch side of the region, for the program `Kernel`: what the core's buffers hold when the region is
  entered (the host operations before it applied to the launch contents), that no host operation writes an
  argument array, each window's block at a grid point, the two branch conditions of the body in closed form
  (the accumulator is reset at the first of the ten points, the mean is written at the last), where the
  output window is idle, and how the frame claim follows from a run to the pipeline's post.
-/
import proofs.«404420_j65472481460554_1_alg».proof.Proof.Gen.Kernel.Launch
import proofs.«404420_j65472481460554_1_alg».proof.Proof.Gen.Kernel.Skeleton
import proofs.«404420_j65472481460554_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the host operations before it, applied to the launch
    contents. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the pipeline (its result buffer is the scalar result, which no window stages). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline's -/

/-- The argument arrays end unchanged: the two vertex arrays are input windows' arrays (an input's array is never
    written back), the face array bypasses the region and the reshape after it does not write it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).2 main_arg2 (Pipeline.mem_restRefs_of main_arg2 (by decide) (by decide))).trans (by
        unfold Pipeline.afterTail₀
        rw [StableHlo.after_of_forall_not_mem (b := Proc.devRef .tc main_arg2) _ _ (List.forall_iff_forall_mem.mp (by
            simp only [hostOps1, List.flatten_cons, List.flatten_nil, List.append_nil, List.Forall, StableHlo.reshape_writes, Finset.mem_singleton]
            exact StableHlo.devRef_ne_of_ne (by decide))),
          Pipeline.withArrays_of_ne _ c (V0 m c) _ main_arg2 (by decide)]
        exact V_main_arg2 m c)⟩) h

/-! ## The body's branch conditions -/

/-- The first branch of the body (reset the accumulator): taken at the first grid point only. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- The second branch (write the mean to the output): taken at the last grid point only. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second branch is not taken the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it is taken the window is live. -/
theorem liveAt0_5 : ∀ t : Fin cfg0.N, cond0_1 (grid0.coords t) → cfg0.idle 5 (grid0.coords t) = false := by decide +kernel

/-! ## The staging memrefs the body is called with -/

/-- The output window's one staging buffer as a view: its contents are stated through it. -/
abbrev VO0_5 : View sig .tc .vmem S1x1 .f32 := (Memref.whole cc0_stg5_0 : Memref sig .tc .vmem S1x1 .f32).view
abbrev ms0_0 (t : Fin cfg0.N) : Memref sig .tc .vmem S16x25000x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x25000x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x25000x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x25000x3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x25000x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- The accumulator: a scoped buffer of the kernel's own, carried from point to point. -/
abbrev scM0_0 : Memref sig .tc .vmem S1x1 .f32 := Memref.whole cc0_scratch0
abbrev VS0_0 : View sig .tc .vmem S1x1 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KRunA.lean ====
/-
  The kernel body run whole at the first grid point: the accumulator, handed over at anything, is reset and the block's sum added. The pieces the accumulator ends with are found by the run itself.
-/
import proofs.«404420_j65472481460554_1_alg».proof.Proof.KKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging memrefs, the five inputs at their contents, the output (untouched here) at any contents, the accumulator at anything:
    it runs to the continuation with the inputs as they were and the accumulator at the pieces its stores wrote. -/
noncomputable def kernelRun0_A (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__loss_kernel i arg1 harg1 arg2 harg2 arg3 harg3 arg4 harg4 arg5 harg5 arg6 harg6 arg7 harg7) K } := by
  refine ⟨[], ?_, fun xi5 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Fr

end
-- ==== Proof.KRunB.lean ====
/-
  The kernel body run whole at a middle grid point: the block's sum is added to what the point before left in the accumulator. The pieces the accumulator ends with are found by the run itself.
-/
import proofs.«404420_j65472481460554_1_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging memrefs, the five inputs at their contents, the output (untouched here) at any contents, the accumulator at what the point before left:
    it runs to the continuation with the inputs as they were and the accumulator at the pieces its stores wrote. -/
noncomputable def kernelRun0_B (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__loss_kernel i arg1 harg1 arg2 harg2 arg3 harg3 arg4 harg4 arg5 harg5 arg6 harg6 arg7 harg7) K } := by
  refine ⟨[], ?_, fun xi5 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Fr

end
-- ==== Proof.KRunC.lean ====
/-
  The kernel body run whole at the last grid point: the block's sum is added to the accumulator and the accumulator divided by the number of entries is stored to the output. The pieces the accumulator and the output buffer end with are found by the run itself.
-/
import proofs.«404420_j65472481460554_1_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging memrefs, the five inputs at their contents, the output at anything, the accumulator at what the point before left:
    it runs to the continuation with the inputs as they were and the accumulator and the output at the pieces its stores wrote. -/
noncomputable def kernelRun0_C (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) :
    Σ' (L5 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__loss_kernel i arg1 harg1 arg2 harg2 arg3 harg3 arg4 harg4 arg5 harg5 arg6 harg6 arg7 harg7) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Fr

end
-- ==== Proof.KFrame.lean ====
/-
  The frame of the program `Kernel`: what the output's staging buffer and the accumulator hold after each of the
  ten grid points (the first point resets the accumulator and adds the first block's sum, each later point adds
  its block's sum to what the point before left, the last also writes the mean), the region's invariant carrying
  the accumulator from point to point, the pipeline's proof data, the body obligation at every point, the run of
  the whole program and the frame claim.
-/
import proofs.«404420_j65472481460554_1_alg».proof.Proof.KRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Nothing is stored to the output here (the window is idle and not written back): a placeholder nothing consults. -/
def out0_A_5 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) : Vec F S1x1 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- The stores to the accumulator cover it. -/
theorem scover0_A_0 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) (y : S1x1.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S1x1.size (by sl_kernel_rfl) y

/-- What the point leaves in the accumulator: its pieces read back. -/
def sout0_A_0 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) : Vec F S1x1 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2 x3 x4).2.1)

/-- Nothing is stored to the output here (the window is idle and not written back): a placeholder nothing consults. -/
def out0_B_5 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) : Vec F S1x1 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4 xs0).1)

/-- The stores to the accumulator cover it. -/
theorem scover0_B_0 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) (y : S1x1.Idx) :
    ∃ pc ∈ (kernelRun0_B c i arg1 harg1 arg2 harg2 arg3 harg3 arg4 harg4 arg5 harg5 arg6 harg6 arg7 harg7 hc0 hc1 x0 x1 x2 x3 x4 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xs0).2.1 S1x1.size (by sl_kernel_rfl) y

/-- What the point leaves in the accumulator: its pieces read back. -/
def sout0_B_0 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 x3 x4 xs0).2.1)

/-- At the last point the one store to the output buffer covers it. -/
theorem cover0_C_5 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) (y : S1x1.Idx) :
    ∃ pc ∈ (kernelRun0_C c i arg1 harg1 arg2 harg2 arg3 harg3 arg4 harg4 arg5 harg5 arg6 harg6 arg7 harg7 hc0 hc1 x0 x1 x2 x3 x4 xs0).1, y ∈ pc.1.set :=
  View.cover_of_tiledL (kernelRun0_C c i arg1 harg1 arg2 harg2 arg3 harg3 arg4 harg4 arg5 harg5 arg6 harg6 arg7 harg7 hc0 hc1 x0 x1 x2 x3 x4 xs0).1 S1x1.size (by sl_kernel_rfl) y

/-- What the last point leaves in the output's staging buffer: its piece read back. -/
def out0_C_5 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) : Vec F S1x1 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xs0).1)

/-- The stores to the accumulator cover it. -/
theorem scover0_C_0 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) (y : S1x1.Idx) :
    ∃ pc ∈ (kernelRun0_C c i arg1 harg1 arg2 harg2 arg3 harg3 arg4 harg4 arg5 harg5 arg6 harg6 arg7 harg7 hc0 hc1 x0 x1 x2 x3 x4 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xs0).2.1 S1x1.size (by sl_kernel_rfl) y

/-- What the point leaves in the accumulator: its pieces read back. -/
def sout0_C_0 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 x3 x4 xs0).2.1)

/-! ## What the buffers hold after each point -/

/-- Past the first of the ten points the reset branch is never taken. -/
theorem not_cond0_0_succ (n : ℕ) (hn : n + 1 < cfg0.N) : ¬cond0_0 (grid0.coords ⟨n + 1, hn⟩) := fun h => by
  have h' := (hcond0_0 ⟨n + 1, hn⟩).mp h
  have hN : n + 1 < 10 := lt_of_lt_of_eq hn (show cfg0.N = 10 from N_0)
  dsimp only at h'; omega

/-- At the first point the reset branch is taken and the write of the mean is not. -/
theorem cond0_0_zero (hn : 0 < cfg0.N) : cond0_0 (grid0.coords ⟨0, hn⟩) := (hcond0_0 ⟨0, hn⟩).mpr (Nat.zero_mod _)
theorem not_cond0_1_zero (hn : 0 < cfg0.N) : ¬cond0_1 (grid0.coords ⟨0, hn⟩) := fun h => by
  have h' := (hcond0_1 ⟨0, hn⟩).mp h
  dsimp only at h'; omega

/-- The accumulation: what the output's staging buffer and the accumulator hold after the body at position `n`, the
    accumulator of a later point computed over what the point before left. -/
def outsAt0 (c : Dev nD) : (n : ℕ) → n < cfg0.N → Vec F S1x1 .f32 × Vec F S1x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) (cond0_0_zero hn) (not_cond0_1_zero hn) (iblk m c 0 ⟨0, hn⟩) (iblk m c 1 ⟨0, hn⟩) (iblk m c 2 ⟨0, hn⟩) (iblk m c 3 ⟨0, hn⟩) (iblk m c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) (cond0_0_zero hn) (not_cond0_1_zero hn) (iblk m c 0 ⟨0, hn⟩) (iblk m c 1 ⟨0, hn⟩) (iblk m c 2 ⟨0, hn⟩) (iblk m c 3 ⟨0, hn⟩) (iblk m c 4 ⟨0, hn⟩))
  | n + 1, hn =>
    if h1 : (n + 1) % 10 = 9 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (not_cond0_0_succ n hn) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (not_cond0_0_succ n hn) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (not_cond0_0_succ n hn) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (not_cond0_0_succ n hn) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- At the first point. -/
theorem outsAt0_A (c : Dev nD) (t : Fin cfg0.N) (h0 : t.val % 10 = 0) (h1 : ¬t.val % 10 = 9) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (by exfalso; have hN : n + 1 < 10 := lt_of_lt_of_eq hn (show cfg0.N = 10 from N_0); (try dsimp only at h0); omega)

/-- At a middle point: over what the point before left. -/
theorem outsAt0_B (c : Dev nD) (t : Fin cfg0.N) (h0 : ¬t.val % 10 = 0) (h1 : ¬t.val % 10 = 9) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point: over what the point before left. -/
theorem outsAt0_C (c : Dev nD) (t : Fin cfg0.N) (h0 : ¬t.val % 10 = 0) (h1 : t.val % 10 = 9) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region's invariant before position `n`: before the first point the accumulator at anything; afterwards the
    accumulator at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; which of the three cases the point is in is read
    off its position; the invariant hands the body the accumulator (at anything at the first point, else at what the
    point before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 10 := lt_of_lt_of_eq t.isLt (show cfg0.N = 10 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 10 = 0
  · have h1 : ¬t.val % 10 = 9 := by omega
    have hz : t.val = 0 := by omega
    rw [Dat.leavesExact_idle (dats m 0 c) 5 t (idleAt0_5 t (fun h => h1 ((hcond0_1 t).mp h))) (noFlush0_5 t (fun h => h1 ((hcond0_1 t).mp h)))]
    rw [outsAt0_A m c t h0 h1]
    unfold sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 10 = 9
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_5 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 10 := N_0; omega)

/-! ## The run and the frame -/

set_option backward.isDefEq.respectTransparency.types false in
/-- Every weakly fair execution of the program terminates, and in every final state each array of the pipeline
    holds what the proof data computes and every other unscoped buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any instance: the program runs to the end and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.KIKit.lean ====
/-
  The launch side of the region, for the program `KernelIdeal`: what the core's buffers hold when the region is
  entered (the host operations before it applied to the launch contents), that no host operation writes an
  argument array, each window's block at a grid point, the two branch conditions of the body in closed form
  (the accumulator is reset at the first of the ten points, the mean is written at the last), where the
  output window is idle, and how the frame claim follows from a run to the pipeline's post.
-/
import proofs.«404420_j65472481460554_1_alg».proof.Proof.Gen.KernelIdeal.Launch
import proofs.«404420_j65472481460554_1_alg».proof.Proof.Gen.KernelIdeal.Skeleton
import proofs.«404420_j65472481460554_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the host operations before it, applied to the launch
    contents. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the pipeline (its result buffer is the scalar result, which no window stages). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline's -/

/-- The argument arrays end unchanged: the two vertex arrays are input windows' arrays (an input's array is never
    written back), the face array bypasses the region and the reshape after it does not write it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).2 main_arg2 (Pipeline.mem_restRefs_of main_arg2 (by decide) (by decide))).trans (by
        unfold Pipeline.afterTail₀
        rw [StableHlo.after_of_forall_not_mem (b := Proc.devRef .tc main_arg2) _ _ (List.forall_iff_forall_mem.mp (by
            simp only [hostOps1, List.flatten_cons, List.flatten_nil, List.append_nil, List.Forall, StableHlo.reshape_writes, Finset.mem_singleton]
            exact StableHlo.devRef_ne_of_ne (by decide))),
          Pipeline.withArrays_of_ne _ c (V0 m c) _ main_arg2 (by decide)]
        exact V_main_arg2 m c)⟩) h

/-! ## The body's branch conditions -/

/-- The first branch of the body (reset the accumulator): taken at the first grid point only. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- The second branch (write the mean to the output): taken at the last grid point only. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second branch is not taken the output window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- Where it is taken the window is live. -/
theorem liveAt0_5 : ∀ t : Fin cfg0.N, cond0_1 (grid0.coords t) → cfg0.idle 5 (grid0.coords t) = false := by decide +kernel

/-! ## The staging memrefs the body is called with -/

/-- The output window's one staging buffer as a view: its contents are stated through it. -/
abbrev VO0_5 : View sig .tc .vmem S1x1 .f32 := (Memref.whole cc0_stg5_0 : Memref sig .tc .vmem S1x1 .f32).view
abbrev ms0_0 (t : Fin cfg0.N) : Memref sig .tc .vmem S16x25000x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x25000x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x25000x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x25000x3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x25000x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- The accumulator: a scoped buffer of the kernel's own, carried from point to point. -/
abbrev scM0_0 : Memref sig .tc .vmem S1x1 .f32 := Memref.whole cc0_scratch0
abbrev VS0_0 : View sig .tc .vmem S1x1 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KIRunA.lean ====
/-
  The kernel body run whole at the first grid point: the accumulator, handed over at anything, is reset and the block's sum added. The pieces the accumulator ends with are found by the run itself.
-/
import proofs.«404420_j65472481460554_1_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging memrefs, the five inputs at their contents, the output (untouched here) at any contents, the accumulator at anything:
    it runs to the continuation with the inputs as they were and the accumulator at the pieces its stores wrote. -/
noncomputable def kernelRun0_A (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__loss_kernel i arg1 harg1 arg2 harg2 arg3 harg3 arg4 harg4 arg5 harg5 arg6 harg6 arg7 harg7) K } := by
  refine ⟨[], ?_, fun xi5 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Fr

end
-- ==== Proof.KIRunB.lean ====
/-
  The kernel body run whole at a middle grid point: the block's sum is added to what the point before left in the accumulator. The pieces the accumulator ends with are found by the run itself.
-/
import proofs.«404420_j65472481460554_1_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging memrefs, the five inputs at their contents, the output (untouched here) at any contents, the accumulator at what the point before left:
    it runs to the continuation with the inputs as they were and the accumulator at the pieces its stores wrote. -/
noncomputable def kernelRun0_B (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__loss_kernel i arg1 harg1 arg2 harg2 arg3 harg3 arg4 harg4 arg5 harg5 arg6 harg6 arg7 harg7) K } := by
  refine ⟨[], ?_, fun xi5 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Fr

end
-- ==== Proof.KIRunC.lean ====
/-
  The kernel body run whole at the last grid point: the block's sum is added to the accumulator and the accumulator divided by the number of entries is stored to the output. The pieces the accumulator and the output buffer end with are found by the run itself.
-/
import proofs.«404420_j65472481460554_1_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging memrefs, the five inputs at their contents, the output at anything, the accumulator at what the point before left:
    it runs to the continuation with the inputs as they were and the accumulator and the output at the pieces its stores wrote. -/
noncomputable def kernelRun0_C (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) :
    Σ' (L5 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__loss_kernel i arg1 harg1 arg2 harg2 arg3 harg3 arg4 harg4 arg5 harg5 arg6 harg6 arg7 harg7) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Fr

end
-- ==== Proof.KIFrame.lean ====
/-
  The frame of the program `KernelIdeal`: what the output's staging buffer and the accumulator hold after each of the
  ten grid points (the first point resets the accumulator and adds the first block's sum, each later point adds
  its block's sum to what the point before left, the last also writes the mean), the region's invariant carrying
  the accumulator from point to point, the pipeline's proof data, the body obligation at every point, the run of
  the whole program and the frame claim.
-/
import proofs.«404420_j65472481460554_1_alg».proof.Proof.KIRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Nothing is stored to the output here (the window is idle and not written back): a placeholder nothing consults. -/
def out0_A_5 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) : Vec F S1x1 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- The stores to the accumulator cover it. -/
theorem scover0_A_0 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) (y : S1x1.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S1x1.size (by sl_kernel_rfl) y

/-- What the point leaves in the accumulator: its pieces read back. -/
def sout0_A_0 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) : Vec F S1x1 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2 x3 x4).2.1)

/-- Nothing is stored to the output here (the window is idle and not written back): a placeholder nothing consults. -/
def out0_B_5 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) : Vec F S1x1 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4 xs0).1)

/-- The stores to the accumulator cover it. -/
theorem scover0_B_0 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) (y : S1x1.Idx) :
    ∃ pc ∈ (kernelRun0_B c i arg1 harg1 arg2 harg2 arg3 harg3 arg4 harg4 arg5 harg5 arg6 harg6 arg7 harg7 hc0 hc1 x0 x1 x2 x3 x4 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xs0).2.1 S1x1.size (by sl_kernel_rfl) y

/-- What the point leaves in the accumulator: its pieces read back. -/
def sout0_B_0 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 x3 x4 xs0).2.1)

/-- At the last point the one store to the output buffer covers it. -/
theorem cover0_C_5 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) (y : S1x1.Idx) :
    ∃ pc ∈ (kernelRun0_C c i arg1 harg1 arg2 harg2 arg3 harg3 arg4 harg4 arg5 harg5 arg6 harg6 arg7 harg7 hc0 hc1 x0 x1 x2 x3 x4 xs0).1, y ∈ pc.1.set :=
  View.cover_of_tiledL (kernelRun0_C c i arg1 harg1 arg2 harg2 arg3 harg3 arg4 harg4 arg5 harg5 arg6 harg6 arg7 harg7 hc0 hc1 x0 x1 x2 x3 x4 xs0).1 S1x1.size (by sl_kernel_rfl) y

/-- What the last point leaves in the output's staging buffer: its piece read back. -/
def out0_C_5 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) : Vec F S1x1 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xs0).1)

/-- The stores to the accumulator cover it. -/
theorem scover0_C_0 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) (y : S1x1.Idx) :
    ∃ pc ∈ (kernelRun0_C c i arg1 harg1 arg2 harg2 arg3 harg3 arg4 harg4 arg5 harg5 arg6 harg6 arg7 harg7 hc0 hc1 x0 x1 x2 x3 x4 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xs0).2.1 S1x1.size (by sl_kernel_rfl) y

/-- What the point leaves in the accumulator: its pieces read back. -/
def sout0_C_0 (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 x3 x4 xs0).2.1)

/-! ## What the buffers hold after each point -/

/-- Past the first of the ten points the reset branch is never taken. -/
theorem not_cond0_0_succ (n : ℕ) (hn : n + 1 < cfg0.N) : ¬cond0_0 (grid0.coords ⟨n + 1, hn⟩) := fun h => by
  have h' := (hcond0_0 ⟨n + 1, hn⟩).mp h
  have hN : n + 1 < 10 := lt_of_lt_of_eq hn (show cfg0.N = 10 from N_0)
  dsimp only at h'; omega

/-- At the first point the reset branch is taken and the write of the mean is not. -/
theorem cond0_0_zero (hn : 0 < cfg0.N) : cond0_0 (grid0.coords ⟨0, hn⟩) := (hcond0_0 ⟨0, hn⟩).mpr (Nat.zero_mod _)
theorem not_cond0_1_zero (hn : 0 < cfg0.N) : ¬cond0_1 (grid0.coords ⟨0, hn⟩) := fun h => by
  have h' := (hcond0_1 ⟨0, hn⟩).mp h
  dsimp only at h'; omega

/-- The accumulation: what the output's staging buffer and the accumulator hold after the body at position `n`, the
    accumulator of a later point computed over what the point before left. -/
def outsAt0 (c : Dev nD) : (n : ℕ) → n < cfg0.N → Vec F S1x1 .f32 × Vec F S1x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) (cond0_0_zero hn) (not_cond0_1_zero hn) (iblk m c 0 ⟨0, hn⟩) (iblk m c 1 ⟨0, hn⟩) (iblk m c 2 ⟨0, hn⟩) (iblk m c 3 ⟨0, hn⟩) (iblk m c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) (cond0_0_zero hn) (not_cond0_1_zero hn) (iblk m c 0 ⟨0, hn⟩) (iblk m c 1 ⟨0, hn⟩) (iblk m c 2 ⟨0, hn⟩) (iblk m c 3 ⟨0, hn⟩) (iblk m c 4 ⟨0, hn⟩))
  | n + 1, hn =>
    if h1 : (n + 1) % 10 = 9 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (not_cond0_0_succ n hn) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (not_cond0_0_succ n hn) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (not_cond0_0_succ n hn) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (not_cond0_0_succ n hn) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- At the first point. -/
theorem outsAt0_A (c : Dev nD) (t : Fin cfg0.N) (h0 : t.val % 10 = 0) (h1 : ¬t.val % 10 = 9) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (by exfalso; have hN : n + 1 < 10 := lt_of_lt_of_eq hn (show cfg0.N = 10 from N_0); (try dsimp only at h0); omega)

/-- At a middle point: over what the point before left. -/
theorem outsAt0_B (c : Dev nD) (t : Fin cfg0.N) (h0 : ¬t.val % 10 = 0) (h1 : ¬t.val % 10 = 9) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point: over what the point before left. -/
theorem outsAt0_C (c : Dev nD) (t : Fin cfg0.N) (h0 : ¬t.val % 10 = 0) (h1 : t.val % 10 = 9) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region's invariant before position `n`: before the first point the accumulator at anything; afterwards the
    accumulator at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; which of the three cases the point is in is read
    off its position; the invariant hands the body the accumulator (at anything at the first point, else at what the
    point before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 10 := lt_of_lt_of_eq t.isLt (show cfg0.N = 10 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 10 = 0
  · have h1 : ¬t.val % 10 = 9 := by omega
    have hz : t.val = 0 := by omega
    rw [Dat.leavesExact_idle (dats m 0 c) 5 t (idleAt0_5 t (fun h => h1 ((hcond0_1 t).mp h))) (noFlush0_5 t (fun h => h1 ((hcond0_1 t).mp h)))]
    rw [outsAt0_A m c t h0 h1]
    unfold sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 10 = 9
    · rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_5 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 10 := N_0; omega)

/-! ## The run and the frame -/

set_option backward.isDefEq.respectTransparency.types false in
/-- Every weakly fair execution of the program terminates, and in every final state each array of the pipeline
    holds what the proof data computes and every other unscoped buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any instance: the program runs to the end and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.KIPieces.lean ====
/-
  What each control case of the kernel body leaves, as the printed payloads of the blocks it read.

  The run of the body finds, for the accumulator and for the output's staging buffer, a list of stored pieces; every
  store and every load of the body goes through the whole-shape rectangle at zero offsets, so a load reads the
  buffer's contents and the last store leaves its payload. At the first grid point the accumulator is reset to the
  zero splat and the update reads that splat back; at a later point the update reads what the point before left; at
  the last point the mean is taken of the accumulator as the update has just left it.
-/
import proofs.«404420_j65472481460554_1_alg».proof.Proof.KIFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-two rectangle, as the constant function. -/
theorem hz2 : (![0, 0] : Fin 2 → ℕ) = fun _ => 0 := by
  funext a
  match a with
  | ⟨0, _⟩ => rfl
  | ⟨1, _⟩ => rfl

/-- The zero offsets of a rank-three rectangle, as the constant function. -/
theorem hz3 : (![0, 0, 0] : Fin 3 → ℕ) = fun _ => 0 := by
  funext a
  match a with
  | ⟨0, _⟩ => rfl
  | ⟨1, _⟩ => rfl
  | ⟨2, _⟩ => rfl

/-- At the first point the accumulator ends at the update over the zero splat: the reset is overwritten by the
    update, and the update's read of the accumulator finds the reset's payload. -/
theorem sout0_A_0_eq (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) :
    sout0_A_0 c i arg1 harg1 arg2 harg2 arg3 harg3 arg4 harg4 arg5 harg5 arg6 harg6 arg7 harg7 hc0 hc1 x0 x1 x2 x3 x4 = k0_pay2 x4 x0 x2 x1 x3 (k0_pay1 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread,
    View.ld_unit_zero (S := S16x25000x3) hz3, View.ld_unit_zero (S := S1x25000x1) hz3]

/-- At a middle point the accumulator ends at the update over what the point before left. -/
theorem sout0_B_0_eq (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) :
    sout0_B_0 c i arg1 harg1 arg2 harg2 arg3 harg3 arg4 harg4 arg5 harg5 arg6 harg6 arg7 harg7 hc0 hc1 x0 x1 x2 x3 x4 xs0 = k0_pay2 x4 x0 x2 x1 x3 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  sl_unfold_words
  rw [View.canon_unit_zero (S := S1x1) hz2]
  simp only [View.readAt_eq_ld, harg1.read_unread, harg2.read_unread, harg3.read_unread, harg4.read_unread, harg5.read_unread, harg7.read_unread,
    View.ld_unit_zero (S := S16x25000x3) hz3, View.ld_unit_zero (S := S1x25000x1) hz3, View.ld_unit_zero (S := S1x1) hz2]

/-- At the last point the accumulator ends at the update over what the point before left. -/
theorem sout0_C_0_eq (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) :
    sout0_C_0 c i arg1 harg1 arg2 harg2 arg3 harg3 arg4 harg4 arg5 harg5 arg6 harg6 arg7 harg7 hc0 hc1 x0 x1 x2 x3 x4 xs0 = k0_pay2 x4 x0 x2 x1 x3 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero (S := S1x1) hz2]
  simp only [View.readAt_eq_ld, harg1.read_unread, harg2.read_unread, harg3.read_unread, harg4.read_unread, harg5.read_unread, harg7.read_unread,
    View.ld_unit_zero (S := S16x25000x3) hz3, View.ld_unit_zero (S := S1x25000x1) hz3, View.ld_unit_zero (S := S1x1) hz2]

/-- At the last point the output's staging buffer ends at the mean of the accumulator as the update left it: the
    read of the accumulator before the output's store finds the update's payload. -/
theorem out0_C_5_eq (c : Dev nD) (i : grid0.Coords) (arg1 : Memref sig .tc .vmem S16x25000x3 .f32) (harg1 : arg1.IsWhole) (arg2 : Memref sig .tc .vmem S16x25000x3 .f32) (harg2 : arg2.IsWhole) (arg3 : Memref sig .tc .vmem S16x25000x3 .f32) (harg3 : arg3.IsWhole) (arg4 : Memref sig .tc .vmem S16x25000x3 .f32) (harg4 : arg4.IsWhole) (arg5 : Memref sig .tc .vmem S1x25000x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S16x25000x3 .f32) (x1 : Vec F S16x25000x3 .f32) (x2 : Vec F S16x25000x3 .f32) (x3 : Vec F S16x25000x3 .f32) (x4 : Vec F S1x25000x1 .f32) (xs0 : Vec F S1x1 .f32) :
    out0_C_5 c i arg1 harg1 arg2 harg2 arg3 harg3 arg4 harg4 arg5 harg5 arg6 harg6 arg7 harg7 hc0 hc1 x0 x1 x2 x3 x4 xs0 = k0_pay3 (k0_pay2 x4 x0 x2 x1 x3 xs0) := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero (S := S1x1) hz2]
  simp only [View.readCov_unit_zero (S := S1x1) _ hz2, View.readAt_eq_ld, harg1.read_unread, harg2.read_unread, harg3.read_unread, harg4.read_unread, harg5.read_unread, harg7.read_unread,
    View.ld_unit_zero (S := S16x25000x3) hz3, View.ld_unit_zero (S := S1x25000x1) hz3, View.ld_unit_zero (S := S1x1) hz2]

end Cert.KernelIdeal.Fr

end
-- ==== Proof.LossSpec.lean ====
/-
  The mean absolute difference of two uniform Laplacians, as a function of the neighbour sums, the
  vertex arrays and the clamped degree, and its regrouping by blocks of the vertex axis.

  With `pt` the summand at one entry, `|(n1 / d - a0) - (n2 / d - a1)|` (the absolute value written as the
  larger of a number and its negative), the loss is the sum of `pt` over all `16 * 250000 * 3` entries, started at
  `0`, divided by the entry count. The vertex axis splits into `10` blocks of `25000`: an entry `(b, v, k)` lies in
  block `v / 25000` at position `(b, v % 25000, k)`, and this is a bijection between the entries and the pairs of a
  block and a position in it. A finite sum in a commutative monoid may be regrouped along any bijection, so the sum
  over all entries is the sum over the blocks of the sums over the positions. No finiteness of the values is used.
-/
import Idealize.ShloMosaic.PureOps.Ideal
import Idealize.ShloMosaic.PureOps.Ideal.Laws
import Idealize.ShloMosaic.Lib.ValueIdx
import Mathlib.Algebra.BigOperators.Fin
import Mathlib.Algebra.BigOperators.Group.Finset.Basic
import Mathlib.Data.EReal.Operations

noncomputable section

namespace Cert.Loss

open scoped BigOperators
open Idealize.ShloMosaic Idealize.ShloMosaic.ValueIdx

/-- The shape of the vertex arrays and neighbour sums. -/
abbrev SA : Shape := ⟨3, ![16, 250000, 3]⟩
/-- The shape of one block of the vertex axis. -/
abbrev SB : Shape := ⟨3, ![16, 25000, 3]⟩
/-- The shape of the degree vector. -/
abbrev SD : Shape := ⟨1, ![250000]⟩

/-- The summand at one entry: the absolute value of the difference of the two Laplacians there. -/
def pt (n1 n2 a0 a1 d : EReal) : EReal :=
  max ((Ideal.div n1 d - a0) - (Ideal.div n2 d - a1)) (-((Ideal.div n1 d - a0) - (Ideal.div n2 d - a1)))

/-- Position `y` of block `t`, as an entry of the whole array: `(y 0, 25000 * t + y 1, y 2)`. -/
def emb (t : Fin 10) (y : SB.Idx) : SA.Idx :=
  ix3 (n0 := 16) (n1 := 250000) (n2 := 3) ⟨(y 0).val, (y 0).isLt⟩
    ⟨25000 * t.val + (y 1).val, by
      have h1 : (y 1).val < 25000 := (y 1).isLt
      have ht : t.val < 10 := t.isLt
      omega⟩
    ⟨(y 2).val, (y 2).isLt⟩

theorem emb_val0 (t : Fin 10) (y : SB.Idx) : ((emb t y) 0).val = (y 0).val := rfl
theorem emb_val1 (t : Fin 10) (y : SB.Idx) : ((emb t y) 1).val = 25000 * t.val + (y 1).val := rfl
theorem emb_val2 (t : Fin 10) (y : SB.Idx) : ((emb t y) 2).val = (y 2).val := rfl

/-- The vertex of an entry. -/
def vtx (i : SA.Idx) : SD.Idx := ix1 (n := 250000) ⟨(i 1).val, (i 1).isLt⟩

theorem vtx_val (i : SA.Idx) : ((vtx i) 0).val = (i 1).val := rfl

/-- The block of an entry and its position in the block. -/
def split (i : SA.Idx) : Fin 10 × SB.Idx :=
  (⟨(i 1).val / 25000, by
      have h1 : (i 1).val < 250000 := (i 1).isLt
      omega⟩,
   ix3 (n0 := 16) (n1 := 25000) (n2 := 3) ⟨(i 0).val, (i 0).isLt⟩
    ⟨(i 1).val % 25000, Nat.mod_lt _ (by decide)⟩
    ⟨(i 2).val, (i 2).isLt⟩)

/-- The entries are the pairs of a block and a position in it. -/
def blockEquiv : Fin 10 × SB.Idx ≃ SA.Idx where
  toFun p := emb p.1 p.2
  invFun := split
  left_inv := by
    rintro ⟨t, y⟩
    have h1 : (y 1).val < 25000 := (y 1).isLt
    refine Prod.ext (Fin.ext ?_) ?_
    · show (25000 * t.val + (y 1).val) / 25000 = t.val
      omega
    · funext a
      match a with
      | ⟨0, _⟩ => rfl
      | ⟨1, _⟩ =>
        refine Fin.ext ?_
        show (25000 * t.val + (y 1).val) % 25000 = (y 1).val
        omega
      | ⟨2, _⟩ => rfl
  right_inv := by
    intro i
    funext a
    match a with
    | ⟨0, _⟩ => rfl
    | ⟨1, _⟩ =>
      refine Fin.ext ?_
      show 25000 * ((i 1).val / 25000) + (i 1).val % 25000 = (i 1).val
      omega
    | ⟨2, _⟩ => rfl

/-- A sum over all entries is the sum over the blocks of the sums over the positions. -/
theorem sum_blocks (g : SA.Idx → EReal) : ∑ i : SA.Idx, g i = ∑ t : Fin 10, ∑ y : SB.Idx, g (emb t y) := by
  rw [← Equiv.sum_comp blockEquiv g, Fintype.sum_prod_type]
  rfl

/-- The sum of the summands over block `t`. -/
def blockSum (n1 n2 a0 a1 : SA.Idx → EReal) (deg : SD.Idx → EReal) (t : Fin 10) : EReal :=
  ∑ y : SB.Idx, pt (n1 (emb t y)) (n2 (emb t y)) (a0 (emb t y)) (a1 (emb t y)) (deg (vtx (emb t y)))

/-- The block sums indexed by a natural number, `0` from the block count on. -/
def bsN (n1 n2 a0 a1 : SA.Idx → EReal) (deg : SD.Idx → EReal) (k : ℕ) : EReal :=
  if h : k < 10 then blockSum n1 n2 a0 a1 deg ⟨k, h⟩ else 0

/-- The loss: the sum of the summands over all entries, started at `0`, divided by the entry count. -/
def lossVal (n1 n2 a0 a1 : SA.Idx → EReal) (deg : SD.Idx → EReal) : EReal :=
  Ideal.div (0 + ∑ i : SA.Idx, pt (n1 i) (n2 i) (a0 i) (a1 i) (deg (vtx i))) (Ideal.ofBits .f32 0x4B371B00#32)

/-- The sum over all entries is the sum of the block sums. -/
theorem sum_eq_range (n1 n2 a0 a1 : SA.Idx → EReal) (deg : SD.Idx → EReal) :
    ∑ i : SA.Idx, pt (n1 i) (n2 i) (a0 i) (a1 i) (deg (vtx i)) = ∑ k ∈ Finset.range 10, bsN n1 n2 a0 a1 deg k := by
  rw [sum_blocks (fun i => pt (n1 i) (n2 i) (a0 i) (a1 i) (deg (vtx i))), Finset.sum_range]
  refine Finset.sum_congr rfl fun t _ => ?_
  unfold bsN
  rw [dif_pos t.isLt]
  rfl

/-- The loss is the sum of the ten block sums divided by the entry count. -/
theorem lossVal_eq_range (n1 n2 a0 a1 : SA.Idx → EReal) (deg : SD.Idx → EReal) :
    lossVal n1 n2 a0 a1 deg
      = Ideal.div (∑ k ∈ Finset.range 10, bsN n1 n2 a0 a1 deg k) (Ideal.ofBits .f32 0x4B371B00#32) := by
  unfold lossVal
  rw [zero_add, sum_eq_range]

end Cert.Loss

end
-- ==== Proof.KIPayIdeal.lean ====
/-
  The kernel's three payloads read at an index over the extended reals.

  The reset payload is the zero splat. The update payload adds to the accumulator the sum, over every entry of the
  block, of the absolute value of the difference of the two Laplacians there: the quotients, differences and absolute
  value are entrywise; the degree block of shape [1, 25000, 1] is broadcast along the first and last axes, so entry
  (b, v, k) reads it at (0, v, 0); the block is viewed with a leading unit axis and reduced over its three other
  axes into one number, which is the sum over every entry, and a sum does not change under the bijection of indices
  a change of shape is. The final payload divides by the entry count.
-/
import proofs.«404420_j65472481460554_1_alg».proof.Proof.Gen.KernelIdeal.Skeleton
import proofs.«404420_j65472481460554_1_alg».proof.Proof.LossSpec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Fr

open scoped BigOperators
open Cert.KernelIdeal Cert.KernelIdeal.Gen
open Idealize.ShloMosaic Idealize.ShloMosaic.ValueIdx

/-- A sum over every index of a vector viewed under another shape is the sum over every index of the vector: the
    change of shape is a bijection of the indices. -/
theorem sum_shapeCast {s t : Shape} (x : s.Idx → EReal) (h : s.ShapeCasts t) :
    ∑ j : t.Idx, shapeCast t x h j = ∑ k : s.Idx, x k :=
  Equiv.sum_comp (Shape.reshapeEquiv h) x

/-- The degree block broadcast to the block's shape reads, at entry `z`, the degree of `z`'s vertex. -/
theorem degree_broadcast_apply (v3 : Vec Ideal S1x25000x1 .f32) (z : S16x25000x3.Idx) :
    broadcastTo S16x25000x3 v3 broadcasts_S1x25000x1_S16x25000x3 z = v3 (ix3 0 (z 1) 0) :=
  broadcastTo_apply v3 broadcasts_S1x25000x1_S16x25000x3 z (ix3 0 (z 1) 0) fun a =>
    match a with
    | ⟨0, _⟩ => rfl
    | ⟨1, _⟩ => rfl
    | ⟨2, _⟩ => rfl

/-- The entrywise part of the update at entry `z`: the absolute value of the difference of the two Laplacians. -/
theorem summand_apply (v3 : FVec Ideal S1x25000x1 .f32) (v5 v9 v11 v15 : FVec Ideal S16x25000x3 .f32) (z : S16x25000x3.Idx) :
    absf (F := Ideal) (φ := .f32) (subf
        (subf (divf (shapeCast S16x25000x3 v5 shapeCasts_S16x25000x3_S16x25000x3)
          (broadcastTo S16x25000x3 (shapeCast S1x25000x1 v3 shapeCasts_S1x25000x1_S1x25000x1) broadcasts_S1x25000x1_S16x25000x3)) v9)
        (subf (divf (shapeCast S16x25000x3 v11 shapeCasts_S16x25000x3_S16x25000x3)
          (broadcastTo S16x25000x3 (shapeCast S1x25000x1 v3 shapeCasts_S1x25000x1_S1x25000x1) broadcasts_S1x25000x1_S16x25000x3)) v15)) z
      = Cert.Loss.pt (v5 z) (v11 z) (v9 z) (v15 z) (v3 (ix3 0 (z 1) 0)) := by
  simp only [shapeCast_self]
  unfold Cert.Loss.pt
  rw [← degree_broadcast_apply v3 z]
  rfl

/-- The tail of the update: a block viewed with a leading unit axis, reduced over its three other axes, the one
    number taken out and added to the accumulator, is the accumulator plus the sum over every entry of the block. -/
theorem acc_add_total (w : FVec Ideal S16x25000x3 .f32) (v23 : Vec Ideal S1x1 .f32) (y : S1x1.Idx) :
    shapeCast S1x1 (addf v23 (broadcast S1x1 (extractAt ![0, 0, 0, 0]
        (shapeCast S1x1x1x1 (multiReduction (F := Ideal) .add [1, 2, 3] S1
          (shapeCast S1x16x25000x3 w shapeCasts_S16x25000x3_S1x16x25000x3) 0x00000000#32 reduces_S1x16x25000x3_S1 (.inl rfl) rfl)
          shapeCasts_S1_S1x1x1x1) inpos_S1x1x1x1_p0_0_0_0))) shapeCasts_S1x1_S1x1 y
      = v23 y + ∑ z : S16x25000x3.Idx, w z := by
  rw [shapeCast_self]
  refine congrArg (v23 y + ·) ?_
  refine (Ideal.multiReduction_add_total (shapeCast S1x16x25000x3 w shapeCasts_S16x25000x3_S1x16x25000x3) 0x00000000#32
    reduces_S1x16x25000x3_S1 (fun b => match b with | ⟨0, _⟩ => rfl) (.inl rfl) rfl
    (Shape.reshapeEquiv shapeCasts_S1_S1x1x1x1 fun a => ⟨![0, 0, 0, 0] a, inpos_S1x1x1x1_p0_0_0_0 a⟩)).trans ?_
  exact sum_shapeCast w shapeCasts_S16x25000x3_S1x16x25000x3

/-- The reset payload is zero everywhere. -/
theorem k0_pay1_apply (y : S1x1.Idx) : k0_pay1 (F := Ideal) y = 0 := by
  unfold k0_pay1
  exact Ideal.ofBits_zero_f32

/-- The update payload: the accumulator plus the sum over the block's entries of the summand. -/
theorem k0_pay2_apply (v3 : Vec Ideal S1x25000x1 .f32) (v5 v9 v11 v15 : Vec Ideal S16x25000x3 .f32)
    (v23 : Vec Ideal S1x1 .f32) (y : S1x1.Idx) :
    k0_pay2 (F := Ideal) v3 v5 v9 v11 v15 v23 y
      = v23 y + ∑ z : S16x25000x3.Idx, Cert.Loss.pt (v5 z) (v11 z) (v9 z) (v15 z) (v3 (ix3 0 (z 1) 0)) := by
  unfold k0_pay2
  refine (acc_add_total _ v23 y).trans ?_
  refine congrArg (v23 y + ·) ?_
  exact Finset.sum_congr rfl fun z _ => summand_apply v3 v5 v9 v11 v15 z

/-- The final payload: the accumulator divided by the entry count. -/
theorem k0_pay3_apply (v32 : Vec Ideal S1x1 .f32) (y : S1x1.Idx) :
    k0_pay3 (F := Ideal) v32 y = Ideal.div (v32 y) (Ideal.ofBits .f32 0x4B371B00#32) := by
  unfold k0_pay3
  rfl

end Cert.KernelIdeal.Fr

end
-- ==== Proof.HostChain.lean ====
/-
  The host chains both programs share, each as one function of the argument contents at the
  exact instance. From the face array `f : i32[500000,3]` with columns `f0 f1 f2`:
  the edge rows `r = f0 ++ f1 ++ f1 ++ f2 ++ f2 ++ f0`, the edge columns
  `c = f1 ++ f0 ++ f2 ++ f1 ++ f0 ++ f2` (negative entries wrapped by `+ 250000`),
  the clamped degree `deg = max (scatterAdd 0 r 1) 1` and the neighbour sum
  `nbr x = scatterAdd 0 r (gather x c)`.
-/
import proofs.«404420_j65472481460554_1_alg».proof.ReferenceIdeal
import proofs.«404420_j65472481460554_1_alg».proof.Proof.Gen.ReferenceIdeal
import Idealize.ShloMosaic.PureOps.Ideal

noncomputable section

namespace Cert.RefSide

open Cert.ReferenceIdeal Cert.ReferenceIdeal.Gen Idealize.ShloMosaic Idealize.SL.Sem

/-- Column `0` of the face array, as a vector. -/
def col0 (f : (⟨S500000x3, .i32⟩ : BufTy).Contents (Elt Ideal)) : (⟨S500000, .i32⟩ : BufTy).Contents (Elt Ideal) :=
  shapeCast _ (extractStridedSlice S500000x1 ![0, 0] f slices_S500000x3_S500000x1_0_0) shapeCasts_S500000x1_S500000

/-- Column `1` of the face array, as a vector. -/
def col1 (f : (⟨S500000x3, .i32⟩ : BufTy).Contents (Elt Ideal)) : (⟨S500000, .i32⟩ : BufTy).Contents (Elt Ideal) :=
  shapeCast _ (extractStridedSlice S500000x1 ![0, 1] f slices_S500000x3_S500000x1_0_1) shapeCasts_S500000x1_S500000

/-- Column `2` of the face array, as a vector. -/
def col2 (f : (⟨S500000x3, .i32⟩ : BufTy).Contents (Elt Ideal)) : (⟨S500000, .i32⟩ : BufTy).Contents (Elt Ideal) :=
  shapeCast _ (extractStridedSlice S500000x1 ![0, 2] f slices_S500000x3_S500000x1_0_2) shapeCasts_S500000x1_S500000

/-- The edge rows `f0 ++ f1 ++ f1 ++ f2 ++ f2 ++ f0`. -/
def rowsOf (f : (⟨S500000x3, .i32⟩ : BufTy).Contents (Elt Ideal)) : (⟨S3000000, .i32⟩ : BufTy).Contents (Elt Ideal) :=
  concatenate S3000000 0 [⟨S500000, col0 f⟩, ⟨S500000, col1 f⟩, ⟨S500000, col1 f⟩, ⟨S500000, col2 f⟩, ⟨S500000, col2 f⟩, ⟨S500000, col0 f⟩] concatenates_S500000_S500000_S500000_S500000_S500000_S500000_S3000000_d0

/-- The edge columns `f1 ++ f0 ++ f2 ++ f1 ++ f0 ++ f2`. -/
def colsOf (f : (⟨S500000x3, .i32⟩ : BufTy).Contents (Elt Ideal)) : (⟨S3000000, .i32⟩ : BufTy).Contents (Elt Ideal) :=
  concatenate S3000000 0 [⟨S500000, col1 f⟩, ⟨S500000, col0 f⟩, ⟨S500000, col2 f⟩, ⟨S500000, col1 f⟩, ⟨S500000, col0 f⟩, ⟨S500000, col2 f⟩] concatenates_S500000_S500000_S500000_S500000_S500000_S500000_S3000000_d0

/-- The edge columns with a negative entry wrapped once by the vertex count. -/
def colsWrapped (f : (⟨S500000x3, .i32⟩ : BufTy).Contents (Elt Ideal)) : (⟨S3000000, .i32⟩ : BufTy).Contents (Elt Ideal) :=
  select (cmpi .slt (colsOf f) (broadcastInDim S3000000 ![] bcast_S_S3000000 (constantI S_ 32 0#32))) (addi (colsOf f) (broadcastInDim S3000000 ![] bcast_S_S3000000 (constantI S_ 32 250000#32))) (colsOf f)

/-- The clamped vertex degree: every edge adds one at its row's vertex, then at least one. -/
def degOf (f : (⟨S500000x3, .i32⟩ : BufTy).Contents (Elt Ideal)) : (⟨S250000, .f32⟩ : BufTy).Contents (Elt Ideal) :=
  maximumf (F := Ideal) (Host.scatterAdd (F := Ideal) scatter_S250000_S3000000x1_S3000000_n_0_0_1 (broadcastInDim S250000 ![] bcast_S_S250000 (constant (F := Ideal) S_ .f32 0x00000000#32)) (broadcastInDim S3000000x1 ![0] bcast_S3000000_S3000000x1_0 (rowsOf f)) (broadcastInDim S3000000 ![] bcast_S_S3000000 (constant (F := Ideal) S_ .f32 0x3F800000#32))) (broadcastInDim S250000 ![] bcast_S_S250000 (constant (F := Ideal) S_ .f32 0x3F800000#32))

/-- The neighbour sum: every edge adds its column's vertex of `x` at its row's vertex. -/
def nbrOf (x : (⟨S16x250000x3, .f32⟩ : BufTy).Contents (Elt Ideal)) (f : (⟨S500000x3, .i32⟩ : BufTy).Contents (Elt Ideal)) : (⟨S16x250000x3, .f32⟩ : BufTy).Contents (Elt Ideal) :=
  Host.scatterAdd (F := Ideal) scatter_S16x250000x3_S3000000x1_S16x3000000x3_02_1_1_1 (broadcastInDim S16x250000x3 ![1, 2] bcast_S250000x3_S16x250000x3_1_2 (broadcastInDim S250000x3 ![] bcast_S_S250000x3 (constant (F := Ideal) S_ .f32 0x00000000#32))) (broadcastInDim S3000000x1 ![0] bcast_S3000000_S3000000x1_0 (rowsOf f)) (Host.gather (α := Ideal .f32) gather_S16x250000x3_S3000000x1_S16x3000000x3_02_1_n_n_1_1_1613 x (broadcastInDim S3000000x1 ![0] bcast_S3000000_S3000000x1_0 (colsWrapped f)))

end Cert.RefSide

end
-- ==== Proof.LibNary6.lean ====
/-
  A host operation over a literal family of SIX references (a concatenate of six operands): its result with each
  operand's contents at its own reference, so that the operands' contents can be rewritten in turn. The six-reference
  form of the library's result lemma for four references.
-/
import Idealize.ShloMosaic.Lib.StableHlo.Run

noncomputable section

namespace Idealize.ShloMosaic.StableHlo

variable {τ : Topo} {sig : RefSig} {Val : EltTy → Type}

/-- The result of an operation over the six references `![x, a, b, c, d, e]`: the function applied to the six
    operands' contents, each read at its own reference. -/
theorem nary6_result {x a b c d e y : Ref sig .tc}
    (f : ((k : Fin 6) → ((![x, a, b, c, d, e] : Fin 6 → Ref sig .tc) k).ty.Contents Val) → y.ty.Contents Val) (hxs hy)
    (F : Valuation τ sig Val) :
    (nary (τ := τ) ![x, a, b, c, d, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e))
            (fun i => i.elim0))))))) := by
  rw [nary_result]; congr 1; funext k; fin_cases k <;> rfl

end Idealize.ShloMosaic.StableHlo

end
-- ==== Proof.KIArrays.lean ====
/-
  The arrays the region finds and the blocks its windows read, at the exact instance.

  The host operations before the region compute, from the face array, the edge rows and columns, the clamped
  degree and the two neighbour sums; read at their result buffers they are the shared host chains applied to
  the launch contents. Each input window's block index at grid point `t` is `(0, t, 0)`, so position `z` of a
  block of a vertex array is entry `(z 0, 25000 t + z 1, z 2)` of the array, and position `z` of the degree
  block is the reshaped degree at `(0, 25000 t + z 1, 0)`, which is the degree of vertex `25000 t + z 1`. Summing
  the entrywise summand over a block's positions therefore gives the block sum of the specification.
-/
import proofs.«404420_j65472481460554_1_alg».proof.Proof.KIFrame
import proofs.«404420_j65472481460554_1_alg».proof.Proof.HostChain
import proofs.«404420_j65472481460554_1_alg».proof.Proof.LossSpec
import proofs.«404420_j65472481460554_1_alg».proof.Proof.LibNary6
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

variable (m : (ℓ : Loc nD τ sig) → Buf (Elt Ideal) ℓ)

/-! ## The argument contents -/

/-- The first vertex array as launched on core `c`. -/
abbrev a0 (c : Dev nD) : (⟨S16x250000x3, .f32⟩ : BufTy).Contents (Elt Ideal) := m ((c : Thread nD τ).loc main_arg0)
/-- The second vertex array as launched on core `c`. -/
abbrev a1 (c : Dev nD) : (⟨S16x250000x3, .f32⟩ : BufTy).Contents (Elt Ideal) := m ((c : Thread nD τ).loc main_arg1)
/-- The face array as launched on core `c`. -/
abbrev fc (c : Dev nD) : (⟨S500000x3, .i32⟩ : BufTy).Contents (Elt Ideal) := m ((c : Thread nD τ).loc main_arg2)

/-! ## The host operations' results -/

/-- An operation over six references has, at its result reference, its function applied to the six operands' contents,
    each read at its own reference. -/
theorem nary6_result_pass {x a b c d e y : Ref sig .tc}
    (f : ((k : Fin 6) → ((![x, a, b, c, d, e] : Fin 6 → Ref sig .tc) k).ty.Contents (Elt Ideal)) → y.ty.Contents (Elt Ideal)) (hxs hy)
    (G : Valuation τ sig (Elt Ideal)) :
    (StableHlo.nary (τ := τ) ![x, a, b, c, d, e] y f hxs hy).result G (no_index (Proc.devRef .tc y))
      = f (Fin.cons (G (Proc.devRef .tc x)) (Fin.cons (G (Proc.devRef .tc a)) (Fin.cons (G (Proc.devRef .tc b))
          (Fin.cons (G (Proc.devRef .tc c)) (Fin.cons (G (Proc.devRef .tc d)) (Fin.cons (G (Proc.devRef .tc e))
            (fun i => i.elim0))))))) :=
  StableHlo.nary6_result f hxs hy G

/-- Reads a buffer after the host operations: an operation's result buffer holds its function of its operands'
    contents, every other buffer what it held before. -/
macro "host_results_pass" : tactic =>
  `(tactic| (simp (disch := decide) only [StableHlo.after_cons, StableHlo.after_nil,
      StableHlo.nullary_result', StableHlo.unary_result', StableHlo.binary_result', StableHlo.ternary_result', StableHlo.reshape_result', nary6_result_pass,
      StableHlo.nullary_result_ne', StableHlo.unary_result_ne', StableHlo.binary_result_ne', StableHlo.ternary_result_ne', StableHlo.reshape_result_ne',
      StableHlo.nary_result_ne']))

/-- The first window's array is the neighbour sum of the first vertex array. -/
theorem V_v24 (c : Dev nD) : V m c main_v24 = Cert.RefSide.nbrOf (a0 m c) (fc m c) := by
  show StableHlo.after hostOps0 (fun b => m (c, b)) (Proc.devRef .tc main_v24) = _
  host_results_pass
  rfl

/-- The second window's array is the neighbour sum of the second vertex array. -/
theorem V_v35 (c : Dev nD) : V m c main_v35 = Cert.RefSide.nbrOf (a1 m c) (fc m c) := by
  show StableHlo.after hostOps0 (fun b => m (c, b)) (Proc.devRef .tc main_v35) = _
  host_results_pass
  rfl

/-- The degree window's array is the clamped degree with a unit axis on either side. -/
theorem V_v36 (c : Dev nD) : V m c main_v36 = shapeCast S1x250000x1 (Cert.RefSide.degOf (fc m c)) shapeCasts_S250000_S1x250000x1 := by
  show StableHlo.after hostOps0 (fun b => m (c, b)) (Proc.devRef .tc main_v36) = _
  host_results_pass
  rfl

/-! ## The blocks read off the arrays -/

/-- A grid point is one of the ten blocks of the vertex axis. -/
theorem point_lt (t : Fin cfg0.N) : t.val < 10 := by
  have h := t.isLt
  have hN : cfg0.N = 10 := Gen.N_0
  omega

/-- A position of the degree block at a grid point is a vertex. -/
theorem vertex_lt (t : Fin cfg0.N) (z : S1x25000x1.Idx) : 25000 * t.val + (z 1).val < 250000 := by
  have h1 : (z 1).val < 25000 := (z 1).isLt
  have ht := point_lt t
  omega

/-- Window 0's block index at grid point `t` is `(0, t, 0)`. -/
theorem index_facts0 : ∀ t : Fin cfg0.N,
    win0_0.index t (0 : Fin 3) = 0 ∧ win0_0.index t (1 : Fin 3) = t.val ∧ win0_0.index t (2 : Fin 3) = 0 :=
  (by decide +kernel : ∀ t : Fin grid0.N, _)

/-- Window 1's block index at grid point `t` is `(0, t, 0)`. -/
theorem index_facts1 : ∀ t : Fin cfg0.N,
    win0_1.index t (0 : Fin 3) = 0 ∧ win0_1.index t (1 : Fin 3) = t.val ∧ win0_1.index t (2 : Fin 3) = 0 :=
  (by decide +kernel : ∀ t : Fin grid0.N, _)

/-- Window 2's block index at grid point `t` is `(0, t, 0)`. -/
theorem index_facts2 : ∀ t : Fin cfg0.N,
    win0_2.index t (0 : Fin 3) = 0 ∧ win0_2.index t (1 : Fin 3) = t.val ∧ win0_2.index t (2 : Fin 3) = 0 :=
  (by decide +kernel : ∀ t : Fin grid0.N, _)

/-- Window 3's block index at grid point `t` is `(0, t, 0)`. -/
theorem index_facts3 : ∀ t : Fin cfg0.N,
    win0_3.index t (0 : Fin 3) = 0 ∧ win0_3.index t (1 : Fin 3) = t.val ∧ win0_3.index t (2 : Fin 3) = 0 :=
  (by decide +kernel : ∀ t : Fin grid0.N, _)

/-- Window 4's block index at grid point `t` is `(0, t, 0)`. -/
theorem index_facts4 : ∀ t : Fin cfg0.N,
    win0_4.index t (0 : Fin 3) = 0 ∧ win0_4.index t (1 : Fin 3) = t.val ∧ win0_4.index t (2 : Fin 3) = 0 :=
  (by decide +kernel : ∀ t : Fin grid0.N, _)

/-- Window 0's block at point `t`, read off any contents of its array: position `z` is entry `(z 0, 25000 t + z 1, z 2)`. -/
theorem win0_read (t : Fin cfg0.N) (f : (⟨S16x250000x3, .f32⟩ : BufTy).Contents (Elt Ideal)) (z : S16x25000x3.Idx) :
    ((cfg0.win 0).blk t).view.read (Elt Ideal) f z = f (Cert.Loss.emb ⟨t.val, point_lt t⟩ z) := by
  obtain ⟨e0, e1, e2⟩ := index_facts0 t
  show f (((cfg0.win 0).blk t).view.emb z) = _
  refine congrArg f ?_
  funext a; apply Fin.ext
  match a with
  | ⟨0, _⟩ => show win0_0.index t (0 : Fin 3) * 16 + 1 * (z 0).val = (z 0).val; omega
  | ⟨1, _⟩ => show win0_0.index t (1 : Fin 3) * 25000 + 1 * (z 1).val = 25000 * t.val + (z 1).val; omega
  | ⟨2, _⟩ => show win0_0.index t (2 : Fin 3) * 3 + 1 * (z 2).val = (z 2).val; omega

/-- Window 1's block at point `t`, read off any contents of its array: position `z` is entry `(z 0, 25000 t + z 1, z 2)`. -/
theorem win1_read (t : Fin cfg0.N) (f : (⟨S16x250000x3, .f32⟩ : BufTy).Contents (Elt Ideal)) (z : S16x25000x3.Idx) :
    ((cfg0.win 1).blk t).view.read (Elt Ideal) f z = f (Cert.Loss.emb ⟨t.val, point_lt t⟩ z) := by
  obtain ⟨e0, e1, e2⟩ := index_facts1 t
  show f (((cfg0.win 1).blk t).view.emb z) = _
  refine congrArg f ?_
  funext a; apply Fin.ext
  match a with
  | ⟨0, _⟩ => show win0_1.index t (0 : Fin 3) * 16 + 1 * (z 0).val = (z 0).val; omega
  | ⟨1, _⟩ => show win0_1.index t (1 : Fin 3) * 25000 + 1 * (z 1).val = 25000 * t.val + (z 1).val; omega
  | ⟨2, _⟩ => show win0_1.index t (2 : Fin 3) * 3 + 1 * (z 2).val = (z 2).val; omega

/-- Window 2's block at point `t`, read off any contents of its array: position `z` is entry `(z 0, 25000 t + z 1, z 2)`. -/
theorem win2_read (t : Fin cfg0.N) (f : (⟨S16x250000x3, .f32⟩ : BufTy).Contents (Elt Ideal)) (z : S16x25000x3.Idx) :
    ((cfg0.win 2).blk t).view.read (Elt Ideal) f z = f (Cert.Loss.emb ⟨t.val, point_lt t⟩ z) := by
  obtain ⟨e0, e1, e2⟩ := index_facts2 t
  show f (((cfg0.win 2).blk t).view.emb z) = _
  refine congrArg f ?_
  funext a; apply Fin.ext
  match a with
  | ⟨0, _⟩ => show win0_2.index t (0 : Fin 3) * 16 + 1 * (z 0).val = (z 0).val; omega
  | ⟨1, _⟩ => show win0_2.index t (1 : Fin 3) * 25000 + 1 * (z 1).val = 25000 * t.val + (z 1).val; omega
  | ⟨2, _⟩ => show win0_2.index t (2 : Fin 3) * 3 + 1 * (z 2).val = (z 2).val; omega

/-- Window 3's block at point `t`, read off any contents of its array: position `z` is entry `(z 0, 25000 t + z 1, z 2)`. -/
theorem win3_read (t : Fin cfg0.N) (f : (⟨S16x250000x3, .f32⟩ : BufTy).Contents (Elt Ideal)) (z : S16x25000x3.Idx) :
    ((cfg0.win 3).blk t).view.read (Elt Ideal) f z = f (Cert.Loss.emb ⟨t.val, point_lt t⟩ z) := by
  obtain ⟨e0, e1, e2⟩ := index_facts3 t
  show f (((cfg0.win 3).blk t).view.emb z) = _
  refine congrArg f ?_
  funext a; apply Fin.ext
  match a with
  | ⟨0, _⟩ => show win0_3.index t (0 : Fin 3) * 16 + 1 * (z 0).val = (z 0).val; omega
  | ⟨1, _⟩ => show win0_3.index t (1 : Fin 3) * 25000 + 1 * (z 1).val = 25000 * t.val + (z 1).val; omega
  | ⟨2, _⟩ => show win0_3.index t (2 : Fin 3) * 3 + 1 * (z 2).val = (z 2).val; omega

/-- The degree window's block at point `t`, read off any contents of its array: position `z` is entry `(0, 25000 t + z 1, 0)`. -/
theorem win4_read (t : Fin cfg0.N) (f : (⟨S1x250000x1, .f32⟩ : BufTy).Contents (Elt Ideal)) (z : S1x25000x1.Idx) :
    ((cfg0.win 4).blk t).view.read (Elt Ideal) f z
      = f (ValueIdx.ix3 (n0 := 1) (n1 := 250000) (n2 := 1) ⟨0, Nat.one_pos⟩ ⟨25000 * t.val + (z 1).val, vertex_lt t z⟩ ⟨0, Nat.one_pos⟩) := by
  obtain ⟨e0, e1, e2⟩ := index_facts4 t
  have h0 : (z 0).val < 1 := (z 0).isLt
  have h2 : (z 2).val < 1 := (z 2).isLt
  show f (((cfg0.win 4).blk t).view.emb z) = _
  refine congrArg f ?_
  funext a; apply Fin.ext
  match a with
  | ⟨0, _⟩ => show win0_4.index t (0 : Fin 3) * 1 + 1 * (z 0).val = 0; omega
  | ⟨1, _⟩ => show win0_4.index t (1 : Fin 3) * 25000 + 1 * (z 1).val = 25000 * t.val + (z 1).val; omega
  | ⟨2, _⟩ => show win0_4.index t (2 : Fin 3) * 1 + 1 * (z 2).val = 0; omega

/-- Position `z` of window 0's block at point `t` is the first neighbour sum's array at entry `(z 0, 25000 t + z 1, z 2)`. -/
theorem iblk0_apply (c : Dev nD) (t : Fin cfg0.N) (z : S16x25000x3.Idx) :
    iblk m c 0 t z = V m c main_v24 (Cert.Loss.emb ⟨t.val, point_lt t⟩ z) :=
  win0_read t (V m c main_v24) z

/-- Position `z` of window 1's block at point `t` is the second neighbour sum's array at the same entry. -/
theorem iblk1_apply (c : Dev nD) (t : Fin cfg0.N) (z : S16x25000x3.Idx) :
    iblk m c 1 t z = V m c main_v35 (Cert.Loss.emb ⟨t.val, point_lt t⟩ z) :=
  win1_read t (V m c main_v35) z

/-- Position `z` of window 2's block at point `t` is the first vertex array at the same entry. -/
theorem iblk2_apply (c : Dev nD) (t : Fin cfg0.N) (z : S16x25000x3.Idx) :
    iblk m c 2 t z = V m c main_arg0 (Cert.Loss.emb ⟨t.val, point_lt t⟩ z) :=
  win2_read t (V m c main_arg0) z

/-- Position `z` of window 3's block at point `t` is the second vertex array at the same entry. -/
theorem iblk3_apply (c : Dev nD) (t : Fin cfg0.N) (z : S16x25000x3.Idx) :
    iblk m c 3 t z = V m c main_arg1 (Cert.Loss.emb ⟨t.val, point_lt t⟩ z) :=
  win3_read t (V m c main_arg1) z

/-- Position `z` of the degree window's block at point `t` is the degree window's array at `(0, 25000 t + z 1, 0)`. -/
theorem iblk4_apply (c : Dev nD) (t : Fin cfg0.N) (z : S1x25000x1.Idx) :
    iblk m c 4 t z = V m c main_v36 (ValueIdx.ix3 (n0 := 1) (n1 := 250000) (n2 := 1) ⟨0, Nat.one_pos⟩
      ⟨25000 * t.val + (z 1).val, vertex_lt t z⟩ ⟨0, Nat.one_pos⟩) :=
  win4_read t (V m c main_v36) z

/-! ## The block sum -/

/-- A vector with a unit axis added on either side reads, at `(0, n, 0)`, the vector at `n`: both have row-major position `n`. -/
theorem unit_axes_apply (x : S250000.Idx → EReal) (n : Fin 250000) :
    shapeCast S1x250000x1 x shapeCasts_S250000_S1x250000x1
        (ValueIdx.ix3 (n0 := 1) (n1 := 250000) (n2 := 1) ⟨0, Nat.one_pos⟩ n ⟨0, Nat.one_pos⟩)
      = x (ValueIdx.ix1 (n := 250000) n) := by
  refine shapeCast_apply x shapeCasts_S250000_S1x250000x1 _ _ ?_
  rw [Shape.rowMajor_val_one, Shape.rowMajor_val_three]
  show n.val = (0 * 250000 + n.val) * 1 + 0
  omega

/-- The summand depends on its five arguments only. -/
theorem pt_congr {n1 n2 b0 b1 d n1' n2' b0' b1' d' : EReal} (h1 : n1 = n1') (h2 : n2 = n2') (h3 : b0 = b0') (h4 : b1 = b1')
    (h5 : d = d') : Cert.Loss.pt n1 n2 b0 b1 d = Cert.Loss.pt n1' n2' b0' b1' d' := by
  rw [h1, h2, h3, h4, h5]

/-- The summand over the positions of the blocks at point `t`, the degree read at the position's vertex, sums to block
    `t`'s sum of the specification at the host chains of the launch contents. -/
theorem block_sum_eq (c : Dev nD) (t : Fin cfg0.N) :
    (∑ z : S16x25000x3.Idx, Cert.Loss.pt (iblk m c 0 t z) (iblk m c 1 t z) (iblk m c 2 t z) (iblk m c 3 t z)
        (iblk m c 4 t (ValueIdx.ix3 (n0 := 1) (n1 := 25000) (n2 := 1) 0 (z 1) 0)))
      = Cert.Loss.bsN (Cert.RefSide.nbrOf (a0 m c) (fc m c)) (Cert.RefSide.nbrOf (a1 m c) (fc m c)) (a0 m c) (a1 m c)
          (Cert.RefSide.degOf (fc m c)) t.val := by
  unfold Cert.Loss.bsN
  rw [dif_pos (point_lt t)]
  unfold Cert.Loss.blockSum
  refine Finset.sum_congr rfl fun z _ => ?_
  exact pt_congr
    ((iblk0_apply m c t z).trans (congrFun (V_v24 m c) _))
    ((iblk1_apply m c t z).trans (congrFun (V_v35 m c) _))
    ((iblk2_apply m c t z).trans (congrFun (V_main_arg0 m c) _))
    ((iblk3_apply m c t z).trans (congrFun (V_main_arg1 m c) _))
    (((iblk4_apply m c t _).trans (congrFun (V_v36 m c) _)).trans (unit_axes_apply _ _))

end Cert.KernelIdeal.Fr

end
-- ==== Proof.KIResult.lean ====
/-
  The result of the program `KernelIdeal`: the output array of the region is written back once, at the last of
  the ten grid points, and its one block is the whole [1,1] array, so after the region it holds what the body left
  in the output's staging buffer at that point; the reshape after the region copies that one entry into the scalar
  result. The run of the whole program is restated with the result buffer at this value and the three argument
  arrays unchanged.
-/
import proofs.«404420_j65472481460554_1_alg».proof.Proof.KIFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last of the ten grid points. -/
theorem nine_lt : 9 < cfg0.N := by rw [show cfg0.N = 10 from N_0]; decide

/-- The [1,1] shape has a single multi-index. -/
theorem idx_S1x1_eq (a b : S1x1.Idx) : a = b :=
  funext fun d => Fin.ext (by
    have ha := (a d).isLt
    have hb := (b d).isLt
    have hs : S1x1.size d = 1 := by fin_cases d <;> rfl
    omega)

/-- The one write-back, at the last point, writes what the body left there in the output's staging buffer: the
    window is uncut and its one block is the whole [1,1] array. -/
theorem flushed5_eq (c : Dev nD) (t : Fin cfg0.N) (hf : (cfg0.win 5).flush t = true) :
    (dats m 0 c).flushed 5 t = ((cfg0.win 5).blk t).view.read (Elt F) ((outsAt0 m c 9 nine_lt).1) := by
  have hN : cfg0.N = 10 := N_0
  have h9 : t.val = 9 := by have := (flush0_5 t).mp hf; have := t.isLt; omega
  obtain rfl : t = ⟨9, nine_lt⟩ := Fin.ext h9
  show (cfg0.win 5).cut (grid0.coords ⟨9, nine_lt⟩) ((dats m 0 c).after 5 ⟨9, nine_lt⟩) = _
  rw [after0_5]
  funext j
  rw [View.read_apply]
  exact congrArg (outsAt0 m c 9 nine_lt).1 (idx_S1x1_eq _ _)

/-- So the output array ends holding what the last point left in the staging buffer. -/
theorem arrAt5 (c : Dev nD) : (dats m 0 c).arrAt 5 cfg0.N = (outsAt0 m c 9 nine_lt).1 :=
  (dats m 0 c).arrAt_eq_of_cover 5 ((outsAt0 m c 9 nine_lt).1) (flushed5_eq m c) fun i =>
    ⟨⟨9, nine_lt⟩, (flush0_5 ⟨9, nine_lt⟩).mpr rfl, by
      rw [idx_S1x1_eq i (((cfg0.win 5).blk ⟨9, nine_lt⟩).view.emb (fun a => ⟨0, by fin_cases a <;> exact Nat.one_pos⟩))]
      exact View.emb_mem_set _ _⟩

/-- The reshape after the region reads the output array and writes the scalar result. -/
theorem tail_v38 (c : Dev nD) :
    Pipeline.afterTail₀ cfgs (dats m) 0 (V0 m) [hostOps1] c main_v38
      = shapeCast S_ ((outsAt0 m c 9 nine_lt).1) shapeCasts_S1x1_S_ := by
  unfold Pipeline.afterTail₀
  show StableHlo.after hostOps1 _ (Proc.devRef .tc main_v38) = _
  after_results
  exact congrArg (fun x : Vec F S1x1 .f32 => shapeCast S_ x shapeCasts_S1x1_S_)
    ((Pipeline.withArrays_arr spec0 launch0.win.arr_inj c _ _ 5).trans (arrAt5 m c))

/-- The program's run with its result named: every weakly fair execution terminates, the scalar result is the one
    entry the last grid point left in the output's staging buffer, and the three argument arrays end unchanged. -/
theorem result_run : θ_run defs (onTc (τ := τ) (main (F := F))) ⟨m, fun _ => 0, ρ⟩ (fun r => ∀ c : Dev nD,
      r.2.mem ((c.tc : Thread nD τ).loc main_v38) = shapeCast S_ ((outsAt0 m c 9 (by rw [show cfg0.N = 10 from N_0]; decide)).1) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v38 (Pipeline.mem_restRefs_of main_v38 (by decide) (by decide))).trans (tail_v38 m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (by
        unfold Pipeline.afterTail₀
        rw [StableHlo.after_of_forall_not_mem (b := Proc.devRef .tc main_arg2) _ _ (List.forall_iff_forall_mem.mp (by
            simp only [hostOps1, List.flatten_cons, List.flatten_nil, List.append_nil, List.Forall, StableHlo.reshape_writes, Finset.mem_singleton]
            exact StableHlo.devRef_ne_of_ne (by decide))),
          Pipeline.withArrays_of_ne _ c (V0 m c) _ main_arg2 (by decide)]
        exact V_main_arg2 m c)⟩) (run_main m ρ)

end Cert.KernelIdeal.Fr

end
-- ==== Proof.KIValue.lean ====
/-
  The kernel's value at the exact instance. After the first grid point the accumulator holds the first block's sum
  of |(nbr₁/deg − v₁) − (nbr₂/deg − v₂)|; each later point adds its own block's sum to what the point before left;
  so after point n it holds the sum of the first n + 1 block sums, and the last point stores that sum of all ten,
  divided by the number of entries: the mean over the whole array, the blocks tiling the vertex axis.
-/
import proofs.«404420_j65472481460554_1_alg».proof.Proof.KIPieces
import proofs.«404420_j65472481460554_1_alg».proof.Proof.KIPayIdeal
import proofs.«404420_j65472481460554_1_alg».proof.Proof.KIArrays
import proofs.«404420_j65472481460554_1_alg».proof.Proof.KIResult

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable (m : (ℓ : Loc nD τ sig) → Buf (Elt Ideal) ℓ) (ρ : Dev nD → PrngReg)

/-- Block `k`'s sum, over the neighbour sums and degrees computed from core `c`'s arguments. -/
abbrev bs (c : Dev nD) (k : ℕ) : EReal :=
  Cert.Loss.bsN (Cert.RefSide.nbrOf (m ((c : Thread nD τ).loc main_arg0)) (m ((c : Thread nD τ).loc main_arg2)))
    (Cert.RefSide.nbrOf (m ((c : Thread nD τ).loc main_arg1)) (m ((c : Thread nD τ).loc main_arg2)))
    (m ((c : Thread nD τ).loc main_arg0)) (m ((c : Thread nD τ).loc main_arg1))
    (Cert.RefSide.degOf (m ((c : Thread nD τ).loc main_arg2))) k

/-- The first point leaves the first block's sum. -/
theorem acc_step_A (c : Dev nD) (t : Fin cfg0.N) (h0 : t.val % 10 = 0) (h1 : ¬t.val % 10 = 9) (y : S1x1.Idx) :
    (outsAt0 m c t.val t.isLt).2 y = 0 + bs m c t.val := by
  rw [outsAt0_A m c t h0 h1]; dsimp only
  refine (congrFun (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) y).trans ?_
  refine (k0_pay2_apply (iblk m c 4 t) (iblk m c 0 t) (iblk m c 2 t) (iblk m c 1 t) (iblk m c 3 t) (k0_pay1 (F := Ideal)) y).trans ?_
  rw [k0_pay1_apply]
  exact congrArg (fun s => (0 : EReal) + s) (block_sum_eq m c t)

/-- A middle point adds its block's sum to what the point before left. -/
theorem acc_step_B (c : Dev nD) (t : Fin cfg0.N) (h0 : ¬t.val % 10 = 0) (h1 : ¬t.val % 10 = 9) (y : S1x1.Idx) :
    (outsAt0 m c t.val t.isLt).2 y = (outsAt0 m c (t.val - 1) (Nat.lt_of_le_of_lt (Nat.sub_le _ _) t.isLt)).2 y + bs m c t.val := by
  rw [outsAt0_B m c t h0 h1]; dsimp only
  refine (congrFun (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) y).trans ?_
  refine (k0_pay2_apply (iblk m c 4 t) (iblk m c 0 t) (iblk m c 2 t) (iblk m c 1 t) (iblk m c 3 t) (outsAt0 m c (t.val - 1) (Nat.lt_of_le_of_lt (Nat.sub_le _ _) t.isLt)).2 y).trans ?_
  exact congrArg (fun s => (outsAt0 m c (t.val - 1) (Nat.lt_of_le_of_lt (Nat.sub_le _ _) t.isLt)).2 y + s) (block_sum_eq m c t)

/-- So does the last point. -/
theorem acc_step_C (c : Dev nD) (t : Fin cfg0.N) (h0 : ¬t.val % 10 = 0) (h1 : t.val % 10 = 9) (y : S1x1.Idx) :
    (outsAt0 m c t.val t.isLt).2 y = (outsAt0 m c (t.val - 1) (Nat.lt_of_le_of_lt (Nat.sub_le _ _) t.isLt)).2 y + bs m c t.val := by
  rw [outsAt0_C m c t h0 h1]; dsimp only
  refine (congrFun (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) y).trans ?_
  refine (k0_pay2_apply (iblk m c 4 t) (iblk m c 0 t) (iblk m c 2 t) (iblk m c 1 t) (iblk m c 3 t) (outsAt0 m c (t.val - 1) (Nat.lt_of_le_of_lt (Nat.sub_le _ _) t.isLt)).2 y).trans ?_
  exact congrArg (fun s => (outsAt0 m c (t.val - 1) (Nat.lt_of_le_of_lt (Nat.sub_le _ _) t.isLt)).2 y + s) (block_sum_eq m c t)

/-- After point `n` the accumulator holds the sum of the first `n + 1` block sums. -/
theorem acc_eq (c : Dev nD) : ∀ (n : ℕ) (hn : n < cfg0.N) (y : S1x1.Idx),
    (outsAt0 m c n hn).2 y = ∑ k ∈ Finset.range (n + 1), bs m c k
  | 0, hn, y => by
    have h := acc_step_A m c ⟨0, hn⟩ (Nat.zero_mod _) (by show ¬(0 % 10 = 9); decide) y
    rw [Finset.sum_range_one]
    exact h.trans (zero_add _)
  | n + 1, hn, y => by
    have hN : n + 1 < 10 := lt_of_lt_of_eq hn (show cfg0.N = 10 from N_0)
    have h0 : ¬(n + 1) % 10 = 0 := by omega
    have ih := acc_eq c n (Nat.lt_of_succ_lt hn) y
    rw [Finset.sum_range_succ, ← ih]
    by_cases h1 : (n + 1) % 10 = 9
    · exact acc_step_C m c ⟨n + 1, hn⟩ h0 h1 y
    · exact acc_step_B m c ⟨n + 1, hn⟩ h0 h1 y

/-- The last point stores the mean. -/
theorem out_eq (c : Dev nD) (h9 : 9 < cfg0.N) (y : S1x1.Idx) :
    (outsAt0 m c 9 h9).1 y = Cert.Loss.lossVal (Cert.RefSide.nbrOf (m ((c : Thread nD τ).loc main_arg0)) (m ((c : Thread nD τ).loc main_arg2)))
      (Cert.RefSide.nbrOf (m ((c : Thread nD τ).loc main_arg1)) (m ((c : Thread nD τ).loc main_arg2)))
      (m ((c : Thread nD τ).loc main_arg0)) (m ((c : Thread nD τ).loc main_arg1))
      (Cert.RefSide.degOf (m ((c : Thread nD τ).loc main_arg2))) := by
  have h0 : ¬(⟨9, h9⟩ : Fin cfg0.N).val % 10 = 0 := by show ¬(9 % 10 = 0); decide
  have h1 : (⟨9, h9⟩ : Fin cfg0.N).val % 10 = 9 := by show 9 % 10 = 9; rfl
  have hC := outsAt0_C m c ⟨9, h9⟩ h0 h1
  rw [show outsAt0 m c 9 h9 = outsAt0 m c (⟨9, h9⟩ : Fin cfg0.N).val (⟨9, h9⟩ : Fin cfg0.N).isLt from rfl, hC]; dsimp only
  refine (congrFun (out0_C_5_eq c (grid0.coords ⟨9, h9⟩) (ms0_0 ⟨9, h9⟩) (hs0_0 ⟨9, h9⟩) (ms0_1 ⟨9, h9⟩) (hs0_1 ⟨9, h9⟩) (ms0_2 ⟨9, h9⟩) (hs0_2 ⟨9, h9⟩) (ms0_3 ⟨9, h9⟩) (hs0_3 ⟨9, h9⟩) (ms0_4 ⟨9, h9⟩) (hs0_4 ⟨9, h9⟩) (ms0_5 ⟨9, h9⟩) (hs0_5 ⟨9, h9⟩) scM0_0 (Memref.isWhole_whole _) (fun h => h0 ((hcond0_0 ⟨9, h9⟩).mp h)) ((hcond0_1 ⟨9, h9⟩).mpr h1) (iblk m c 0 ⟨9, h9⟩) (iblk m c 1 ⟨9, h9⟩) (iblk m c 2 ⟨9, h9⟩) (iblk m c 3 ⟨9, h9⟩) (iblk m c 4 ⟨9, h9⟩) (outsAt0 m c ((⟨9, h9⟩ : Fin cfg0.N).val - 1) (Nat.lt_of_le_of_lt (Nat.sub_le _ _) (⟨9, h9⟩ : Fin cfg0.N).isLt)).2) y).trans ?_
  refine (k0_pay3_apply _ y).trans ?_
  rw [Cert.Loss.lossVal_eq_range]
  refine congrArg (fun s => Ideal.div s (Ideal.ofBits .f32 0x4B371B00#32)) ?_
  refine (k0_pay2_apply (iblk m c 4 ⟨9, h9⟩) (iblk m c 0 ⟨9, h9⟩) (iblk m c 2 ⟨9, h9⟩) (iblk m c 1 ⟨9, h9⟩) (iblk m c 3 ⟨9, h9⟩) (outsAt0 m c ((⟨9, h9⟩ : Fin cfg0.N).val - 1) (Nat.lt_of_le_of_lt (Nat.sub_le _ _) (⟨9, h9⟩ : Fin cfg0.N).isLt)).2 y).trans ?_
  rw [Finset.sum_range_succ]
  have hp := acc_eq m c 8 (Nat.lt_of_succ_lt h9) y
  have hb := block_sum_eq m c ⟨9, h9⟩
  exact (congrArg (fun s => (outsAt0 m c ((⟨9, h9⟩ : Fin cfg0.N).val - 1) (Nat.lt_of_le_of_lt (Nat.sub_le _ _) (⟨9, h9⟩ : Fin cfg0.N).isLt)).2 y + s) hb).trans (congrArg (fun s => s + bs m c 9) hp)

/-- The idealized kernel program runs to the end with its result at the mean and its arguments unchanged. -/
theorem kernel_run : θ_run defs (onTc (τ := τ) (main (F := Ideal))) ⟨m, fun _ => 0, ρ⟩ (fun r => ∀ c : Dev nD,
      r.2.mem ((c.tc : Thread nD τ).loc main_v38) = (fun _ => Cert.Loss.lossVal (Cert.RefSide.nbrOf (m ((c : Thread nD τ).loc main_arg0)) (m ((c : Thread nD τ).loc main_arg2)))
          (Cert.RefSide.nbrOf (m ((c : Thread nD τ).loc main_arg1)) (m ((c : Thread nD τ).loc main_arg2)))
          (m ((c : Thread nD τ).loc main_arg0)) (m ((c : Thread nD τ).loc main_arg1))
          (Cert.RefSide.degOf (m ((c : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext fun j => out_eq m c _ _), (h c).2⟩) (result_run m ρ)

end Cert.KernelIdeal.Fr

end
-- ==== Proof.RefSide.lean ====
/-
  The reference's result, as a function of the argument contents, is the loss of `LossSpec` at the shared host
  chains: the neighbour sums `nbrOf a0 f`, `nbrOf a1 f`, the vertex arrays themselves and the clamped degree
  `degOf f`. The reference builds the degree and the edge index chains twice; both copies are the same functions of
  the face array. Entry by entry its tail is a quotient by the degree of the entry's vertex (the degree vector read
  through its two broadcasts `[250000] → [1,250000,1] → [16,250000,3]`, which read coordinate `1`), two
  differences and an absolute value; the final reduction over all three axes is the sum over all entries started at
  the zero constant, and the last operation divides by the entry count.
-/
import proofs.«404420_j65472481460554_1_alg».proof.Proof.Gen.ReferenceIdeal.Read
import proofs.«404420_j65472481460554_1_alg».proof.Proof.HostChain
import proofs.«404420_j65472481460554_1_alg».proof.Proof.LossSpec

noncomputable section

namespace Cert.RefSide

open scoped BigOperators
open Cert.ReferenceIdeal Cert.ReferenceIdeal.Gen Cert.ReferenceIdeal.Read Idealize.ShloMosaic Idealize.SL.Sem

/-- The first copy of the neighbour sum is the shared chain. -/
theorem v24_eq (x : (⟨S16x250000x3, .f32⟩ : BufTy).Contents (Elt Ideal)) (f : (⟨S500000x3, .i32⟩ : BufTy).Contents (Elt Ideal)) :
    val_main_v24 (F := Ideal) x f = nbrOf x f := rfl

/-- The second copy of the neighbour sum is the shared chain. -/
theorem v53_eq (x : (⟨S16x250000x3, .f32⟩ : BufTy).Contents (Elt Ideal)) (f : (⟨S500000x3, .i32⟩ : BufTy).Contents (Elt Ideal)) :
    val_main_v53 (F := Ideal) x f = nbrOf x f := rfl

/-- The first copy of the clamped degree is the shared chain. -/
theorem v13_eq (f : (⟨S500000x3, .i32⟩ : BufTy).Contents (Elt Ideal)) : val_main_v13 (F := Ideal) f = degOf f := rfl

/-- The second copy of the clamped degree is the shared chain. -/
theorem v42_eq (f : (⟨S500000x3, .i32⟩ : BufTy).Contents (Elt Ideal)) : val_main_v42 (F := Ideal) f = degOf f := rfl

/-- The two broadcasts of the degree read the entry's vertex (first copy). -/
theorem idx_deg0 (j : S16x250000x3.Idx) : idx_main_v25 (idx_main_v26 j) = Cert.Loss.vtx j := by
  funext a
  match a with
  | ⟨0, _⟩ => rfl

/-- The two broadcasts of the degree read the entry's vertex (second copy). -/
theorem idx_deg1 (j : S16x250000x3.Idx) : idx_main_v54 (idx_main_v55 j) = Cert.Loss.vtx j := by
  funext a
  match a with
  | ⟨0, _⟩ => rfl

/-- The first Laplacian's quotient at an entry: the neighbour sum over the degree of the entry's vertex. -/
theorem v27_at (a0 : (⟨S16x250000x3, .f32⟩ : BufTy).Contents (Elt Ideal)) (f : (⟨S500000x3, .i32⟩ : BufTy).Contents (Elt Ideal))
    (j : S16x250000x3.Idx) :
    val_main_v27 (F := Ideal) a0 f j = Ideal.div (nbrOf a0 f j) (degOf f (Cert.Loss.vtx j)) := by
  rw [val_main_v27_apply, val_main_v26_apply, val_main_v25_apply, idx_deg0, v13_eq, v24_eq, Ideal.hostDivf_def]

/-- The second Laplacian's quotient at an entry. -/
theorem v56_at (a1 : (⟨S16x250000x3, .f32⟩ : BufTy).Contents (Elt Ideal)) (f : (⟨S500000x3, .i32⟩ : BufTy).Contents (Elt Ideal))
    (j : S16x250000x3.Idx) :
    val_main_v56 (F := Ideal) a1 f j = Ideal.div (nbrOf a1 f j) (degOf f (Cert.Loss.vtx j)) := by
  rw [val_main_v56_apply, val_main_v55_apply, val_main_v54_apply, idx_deg1, v42_eq, v53_eq, Ideal.hostDivf_def]

/-- The reference's summand at an entry is the loss's: the absolute value is the larger of the difference and its
    negative. -/
theorem v59_at (a0 a1 : (⟨S16x250000x3, .f32⟩ : BufTy).Contents (Elt Ideal)) (f : (⟨S500000x3, .i32⟩ : BufTy).Contents (Elt Ideal))
    (j : S16x250000x3.Idx) :
    val_main_v59 (F := Ideal) a0 a1 f j
      = Cert.Loss.pt (nbrOf a0 f j) (nbrOf a1 f j) (a0 j) (a1 j) (degOf f (Cert.Loss.vtx j)) := by
  rw [val_main_v59_apply, val_main_v58_apply, val_main_v28_apply, val_main_v57_apply, v27_at, v56_at,
    Ideal.hostAbsf_def, Ideal.absf_def, Ideal.subf_def, Ideal.subf_def, Ideal.subf_def, Cert.Loss.pt]

/-- The reference's result is the loss at the shared host chains: the reduction over all three axes is the zero
    constant plus the sum of the summands over all entries, and the last operation divides by the entry count. -/
theorem ref_eq_lossVal (a0 a1 : (⟨S16x250000x3, .f32⟩ : BufTy).Contents (Elt Ideal)) (f : (⟨S500000x3, .i32⟩ : BufTy).Contents (Elt Ideal)) :
    val_main_v61 (F := Ideal) a0 a1 f = fun _ => Cert.Loss.lossVal (nbrOf a0 f) (nbrOf a1 f) a0 a1 (degOf f) := by
  funext i
  have hs : ∑ j : S16x250000x3.Idx, val_main_v59 (F := Ideal) a0 a1 f j
      = ∑ j : Cert.Loss.SA.Idx, Cert.Loss.pt (nbrOf a0 f j) (nbrOf a1 f j) (a0 j) (a1 j) (degOf f (Cert.Loss.vtx j)) :=
    Finset.sum_congr rfl (fun j _ => v59_at a0 a1 f j)
  rw [val_main_v61_apply, val_main_v60_apply, val_main_cst_11_apply, val_main_cst_10_apply, hs,
    Ideal.hostDivf_def, Ideal.ofBits_def, Ideal.ofBits_def, Ideal.ofBits_zero_f32, Cert.Loss.lossVal]

/-- The same, on the term the reference's run states for its result: at the arguments' launch contents. -/
theorem res_eq_lossVal (m : (ℓ : Loc nD τ sig) → Buf (Elt Ideal) ℓ) (c : Dev nD) :
    Cert.ReferenceIdeal.Value.res_main_v61 (F := Ideal) m c
      = fun _ => Cert.Loss.lossVal
          (nbrOf (m ((c.tc : Thread nD τ).loc main_arg0)) (m ((c.tc : Thread nD τ).loc main_arg2)))
          (nbrOf (m ((c.tc : Thread nD τ).loc main_arg1)) (m ((c.tc : Thread nD τ).loc main_arg2)))
          (m ((c.tc : Thread nD τ).loc main_arg0)) (m ((c.tc : Thread nD τ).loc main_arg1))
          (degOf (m ((c.tc : Thread nD τ).loc main_arg2))) :=
  (val_main_v61_eq m c).trans (ref_eq_lossVal _ _ _)

end Cert.RefSide

end
-- ==== Proof.lean ====
/-
  The mean absolute difference of two uniform graph Laplacians, tiled: the kernel sums |(nbr₁/deg − v₁) − (nbr₂/deg − v₂)|
  over ten blocks of 25000 vertices into an accumulator and divides by the 12,000,000 entries at the last block; the
  reference takes the mean of the whole array at once. The neighbour sums and the degrees are the same host terms of
  the inputs in both programs, and a finite sum of extended reals may be regrouped by blocks, so the two results are
  one extended real. The three frames: both kernel programs run their host operations, the ten grid points and the
  final reshape without a fault and write no argument; the reference is a straight line of host operations.
-/
import proofs.«404420_j65472481460554_1_alg».proof.Defs
import proofs.«404420_j65472481460554_1_alg».proof.Proof.KFrame
import proofs.«404420_j65472481460554_1_alg».proof.Proof.KIFrame
import proofs.«404420_j65472481460554_1_alg».proof.Proof.KIValue
import proofs.«404420_j65472481460554_1_alg».proof.Proof.RefSide
import proofs.«404420_j65472481460554_1_alg».proof.Proof.Gen.Pre_finite_inputs
import Idealize.ShloMosaic.Adequacy
import Idealize.ShloMosaic.Init

noncomputable section

namespace Cert.Proof

open Idealize.ShloMosaic Idealize.SL.Sem

/-- The word-level kernel program runs to the end and leaves its arguments as they were. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two results are one extended real: the kernel's accumulated, tiled mean and the reference's whole-array mean
    of the same entries, the neighbour sums and degrees the same host terms of the agreeing arguments. -/
theorem algebraic : Cert.algebraic_KernelIdeal_ReferenceIdeal := by
  intro m ρ m' ρ' _ hagree
  refine ⟨fun c => (fun _ => Cert.Loss.lossVal (Cert.RefSide.nbrOf (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
          (Cert.RefSide.nbrOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
          (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (Cert.RefSide.degOf (m ((c.tc : Thread Cert.KernelIdeal.nD Cert.KernelIdeal.τ).loc Cert.KernelIdeal.main_arg2)))), Cert.KernelIdeal.Fr.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.RefSide.res_eq_lossVal m' c, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
